-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x4096 : Shape := ⟨2, ![32768, 4096]⟩
abbrev S64x4096 : Shape := ⟨2, ![64, 4096]⟩
abbrev S1x4096 : Shape := ⟨2, ![1, 4096]⟩
abbrev S_ : Shape := ⟨0, ![]⟩

class Facts : Prop where
  bcast_S_S32768x4096 : S_.BroadcastsInDim S32768x4096 (![] : Fin 0 → Fin S32768x4096.rank)
  reducesTo_S32768x4096_S_d0_1 : S32768x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_
  bcast_S_S1x4096 : S_.BroadcastsInDim S1x4096 (![] : Fin 0 → Fin S1x4096.rank)
  reducesTo_S1x4096_S_d0_1 : S1x4096.ReducesTo [0, 1] S_

variable [Facts]

def fn {F : FTy → Type} [FloatOps F] (main_arg0 : FVec F S32768x4096 .f32) (main_arg1 : FVec F S64x4096 .f32) (main_arg2 : FVec F S1x4096 .f32) : IVec S_ 1 :=
  let main_v0 : FVec F S32768x4096 .f32 := Host.absf main_arg0
  let main_cst : FVec F S_ .f32 := constant S_ .f32 0x7F800000#32
  let main_v1 : FVec F S32768x4096 .f32 := broadcastInDim S32768x4096 ![] bcast_S_S32768x4096 main_cst
  let main_v2 : IVec S32768x4096 1 := cmpf .olt main_v0 main_v1
  let main_c : IVec S_ 1 := constantI S_ 1 1#1
  let main_v3 : IVec S_ 1 := (fun x v => Host.reduce IntOp.andi x v reducesTo_S32768x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_v9 : FVec F S1x4096 .f32 := Host.absf main_arg2
  let main_cst_2 : FVec F S_ .f32 := constant S_ .f32 0x7F800000#32
  let main_v10 : FVec F S1x4096 .f32 := broadcastInDim S1x4096 ![] bcast_S_S1x4096 main_cst_2
  let main_v11 : IVec S1x4096 1 := cmpf .olt main_v9 main_v10
  let main_c_3 : IVec S_ 1 := constantI S_ 1 1#1
  let main_v12 : IVec S_ 1 := (fun x v => Host.reduce IntOp.andi x v reducesTo_S1x4096_S_d0_1 h_S_) main_v11 main_c_3
  let main_v13 : IVec S_ 1 := andi main_v8 main_v12
  main_v13
-- ==== Kernel.lean ====
abbrev S32768x4096 : Shape := ⟨2, ![32768, 4096]⟩
abbrev S64x4096 : Shape := ⟨2, ![64, 4096]⟩
abbrev S1x4096 : Shape := ⟨2, ![1, 4096]⟩
abbrev S_ : Shape := ⟨0, ![]⟩
abbrev S63x4096 : Shape := ⟨2, ![63, 4096]⟩
abbrev S128x4096 : Shape := ⟨2, ![128, 4096]⟩
abbrev S32768x64 : Shape := ⟨2, ![32768, 64]⟩
abbrev S32768x1 : Shape := ⟨2, ![32768, 1]⟩
abbrev S1024x4096 : Shape := ⟨2, ![1024, 4096]⟩
abbrev S1024x64 : Shape := ⟨2, ![1024, 64]⟩
abbrev S1024x1 : Shape := ⟨2, ![1024, 1]⟩
abbrev S256x4096 : Shape := ⟨2, ![256, 4096]⟩
abbrev S256x128 : Shape := ⟨2, ![256, 128]⟩
abbrev S256x64 : Shape := ⟨2, ![256, 64]⟩
abbrev S256 : Shape := ⟨1, ![256]⟩
abbrev S256x1 : Shape := ⟨2, ![256, 1]⟩

abbrev nBuf : Space → Nat
  | .hbm => 8
  | .vmem => 7
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S1x4096, .f32⟩
  | .hbm, ⟨3, _⟩ => ⟨S_, .f32⟩
  | .hbm, ⟨4, _⟩ => ⟨S63x4096, .f32⟩
  | .hbm, ⟨5, _⟩ => ⟨S128x4096, .f32⟩
  | .hbm, ⟨6, _⟩ => ⟨S32768x64, .f32⟩
  | .hbm, ⟨7, _⟩ => ⟨S32768x1, .f32⟩
  | .local _ .vmem, ⟨0, _⟩ => ⟨S1024x4096, .f32⟩
  | .local _ .vmem, ⟨1, _⟩ => ⟨S1024x4096, .f32⟩
  | .local _ .vmem, ⟨2, _⟩ => ⟨S128x4096, .f32⟩
  | .local _ .vmem, ⟨3, _⟩ => ⟨S1024x64, .f32⟩
  | .local _ .vmem, ⟨4, _⟩ => ⟨S1024x64, .f32⟩
  | .local _ .vmem, ⟨5, _⟩ => ⟨S1024x1, .f32⟩
  | .local _ .vmem, ⟨6, _⟩ => ⟨S1024x1, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S63x4096 : S_.BroadcastsInDim S63x4096 (![] : Fin 0 → Fin S63x4096.rank)
  concatenates_S64x4096_S1x4096_S63x4096_S128x4096_d0 : Shape.Concatenates [S64x4096, S1x4096, S63x4096] S128x4096 0
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S1024x4096_S256x4096_0_0 : ∀ a, (![0, 0] : Fin 2 → Nat) a + S256x4096.size a ≤ S1024x4096.size a
  h_S256x4096 : 0 < S256x4096.numel
  slices_S256x128_o0_0_S256x64 : S256x128.Slices ![0, 0] S256x64
  reduces_S256x64_S256 : S256x64.Reduces [1] S256
  shapeCasts_S256_S256x1 : S256.ShapeCasts S256x1
  broadcasts_S256x1_S256x64 : S256x1.Broadcasts S256x64
  inb_S1024x64_S256x64_0_0 : ∀ a, (![0, 0] : Fin 2 → Nat) a + S256x64.size a ≤ S1024x64.size a
  h_S256x64 : 0 < S256x64.numel
  slices_S256x128_o0_64_S256x1 : S256x128.Slices ![0, 64] S256x1
  inb_S1024x1_S256x1_0_0 : ∀ a, (![0, 0] : Fin 2 → Nat) a + S256x1.size a ≤ S1024x1.size a
  h_S256x1 : 0 < S256x1.numel
  inb_S1024x4096_S256x4096_256_0 : ∀ a, (![256, 0] : Fin 2 → Nat) a + S256x4096.size a ≤ S1024x4096.size a
  inb_S1024x64_S256x64_256_0 : ∀ a, (![256, 0] : Fin 2 → Nat) a + S256x64.size a ≤ S1024x64.size a
  inb_S1024x1_S256x1_256_0 : ∀ a, (![256, 0] : Fin 2 → Nat) a + S256x1.size a ≤ S1024x1.size a
  inb_S1024x4096_S256x4096_512_0 : ∀ a, (![512, 0] : Fin 2 → Nat) a + S256x4096.size a ≤ S1024x4096.size a
  inb_S1024x64_S256x64_512_0 : ∀ a, (![512, 0] : Fin 2 → Nat) a + S256x64.size a ≤ S1024x64.size a
  inb_S1024x1_S256x1_512_0 : ∀ a, (![512, 0] : Fin 2 → Nat) a + S256x1.size a ≤ S1024x1.size a
  inb_S1024x4096_S256x4096_768_0 : ∀ a, (![768, 0] : Fin 2 → Nat) a + S256x4096.size a ≤ S1024x4096.size a
  inb_S1024x64_S256x64_768_0 : ∀ a, (![768, 0] : Fin 2 → Nat) a + S256x64.size a ≤ S1024x64.size a
  inb_S1024x1_S256x1_768_0 : ∀ a, (![768, 0] : Fin 2 → Nat) a + S256x1.size a ≤ S1024x1.size a
  dot_S256x4096_S128x4096_S256x128_1_1_0_0_n_n_wf : DotDims.WF S256x4096 S128x4096 S256x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S32768x4096.size a
  hwx0_0 : ∀ i : grid0.Coords, EltTy.bits .f32 = 32 ∨ (Rect.block (s := S32768x4096) S1024x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S128x4096.size a
  hwx0_1 : ∀ i : grid0.Coords, EltTy.bits .f32 = 32 ∨ (Rect.block (s := S128x4096) S128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S32768x64.size a
  hwx0_2 : ∀ i : grid0.Coords, EltTy.bits .f32 = 32 ∨ (Rect.block (s := S32768x64) S1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S32768x1.size a
  hwx0_3 : ∀ i : grid0.Coords, EltTy.bits .f32 = 32 ∨ (Rect.block (s := S32768x1) S1024x1.size (cc0_transform_3 i) (hinb0_3 i)).WholeWords (EltTy.packing .f32)

variable [Facts₀]

def dot_S256x4096_S128x4096_S256x128_1_1_0_0_n_n : DotDims S256x4096 S128x4096 S256x128 where
  lhsContracting := [1]
  rhsContracting := [1]
  lhsNonContracting := [0]
  rhsNonContracting := [0]
  lhsBatch := []
  rhsBatch := []
  wf := dot_S256x4096_S128x4096_S256x128_1_1_0_0_n_n_wf

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1024x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x4096 : Shape := ⟨2, ![32768, 4096]⟩
abbrev S64x4096 : Shape := ⟨2, ![64, 4096]⟩
abbrev S1x4096 : Shape := ⟨2, ![1, 4096]⟩
abbrev S4096x64 : Shape := ⟨2, ![4096, 64]⟩
abbrev S32768x64 : Shape := ⟨2, ![32768, 64]⟩
abbrev S_ : Shape := ⟨0, ![]⟩
abbrev S32768 : Shape := ⟨1, ![32768]⟩
abbrev S32768x1 : Shape := ⟨2, ![32768, 1]⟩
abbrev S4096x1 : Shape := ⟨2, ![4096, 1]⟩

abbrev nBuf : Space → Nat
  | .hbm => 29
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S1x4096, .f32⟩
  | .hbm, ⟨3, _⟩ => ⟨S4096x64, .f32⟩
  | .hbm, ⟨4, _⟩ => ⟨S32768x64, .f32⟩
  | .hbm, ⟨5, _⟩ => ⟨S_, .f32⟩
  | .hbm, ⟨6, _⟩ => ⟨S32768, .f32⟩
  | .hbm, ⟨7, _⟩ => ⟨S_, .f32⟩
  | .hbm, ⟨8, _⟩ => ⟨S32768, .f32⟩
  | .hbm, ⟨9, _⟩ => ⟨S32768, .f32⟩
  | .hbm, ⟨10, _⟩ => ⟨S32768x1, .f32⟩
  | .hbm, ⟨11, _⟩ => ⟨S32768x64, .f32⟩
  | .hbm, ⟨12, _⟩ => ⟨S32768x64, .f32⟩
  | .hbm, ⟨13, _⟩ => ⟨S32768x64, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S32768x64, .f32⟩
  | .hbm, ⟨18, _⟩ => ⟨S32768x64, .f32⟩
  | .hbm, ⟨19, _⟩ => ⟨S4096x1, .f32⟩
  | .hbm, ⟨20, _⟩ => ⟨S32768x1, .f32⟩
  | .hbm, ⟨21, _⟩ => ⟨S32768x1, .f32⟩
  | .hbm, ⟨22, _⟩ => ⟨S32768x1, .f32⟩
  | .hbm, ⟨23, _⟩ => ⟨S_, .f32⟩
  | .hbm, ⟨24, _⟩ => ⟨S32768x1, .f32⟩
  | .hbm, ⟨25, _⟩ => ⟨S32768x1, .f32⟩
  | .hbm, ⟨26, _⟩ => ⟨S_, .f32⟩
  | .hbm, ⟨27, _⟩ => ⟨S32768x1, .f32⟩
  | .hbm, ⟨28, _⟩ => ⟨S32768x1, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  transposes_S64x4096_S4096x64_1_0 : S64x4096.Transposes [1, 0] S4096x64
  reducesTo_S32768x64_S32768_d1 : S32768x64.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x64_0_1 : S32768x1.BroadcastsInDim S32768x64 (![0, 1] : Fin 2 → Fin S32768x64.rank)
  transposes_S1x4096_S4096x1_1_0 : S1x4096.Transposes [1, 0] S4096x1
  bcast_S_S32768x1 : S_.BroadcastsInDim S32768x1 (![] : Fin 0 → Fin S32768x1.rank)
  dot_S32768x4096_S4096x64_S32768x64_1_0_0_1_n_n_wf : DotDims.WF S32768x4096 S4096x64 S32768x64 [1] [0] [0] [1] [] []
  dot_S32768x4096_S4096x1_S32768x1_1_0_0_1_n_n_wf : DotDims.WF S32768x4096 S4096x1 S32768x1 [1] [0] [0] [1] [] []

variable [Facts₀]

def dot_S32768x4096_S4096x64_S32768x64_1_0_0_1_n_n : DotDims S32768x4096 S4096x64 S32768x64 where
  lhsContracting := [1]
  rhsContracting := [0]
  lhsNonContracting := [0]
  rhsNonContracting := [1]
  lhsBatch := []
  rhsBatch := []
  wf := dot_S32768x4096_S4096x64_S32768x64_1_0_0_1_n_n_wf
def dot_S32768x4096_S4096x1_S32768x1_1_0_0_1_n_n : DotDims S32768x4096 S4096x1 S32768x1 where
  lhsContracting := [1]
  rhsContracting := [0]
  lhsNonContracting := [0]
  rhsNonContracting := [1]
  lhsBatch := []
  rhsBatch := []
  wf := dot_S32768x4096_S4096x1_S32768x1_1_0_0_1_n_n_wf

class Facts : Prop extends Facts₀ where

variable [Facts]
-- ==== Proof.KernelEntry.lean ====
/-
  The program up to its one kernel region.

  Before the region the host builds the packed weight matrix: a zero scalar, its broadcast to 63 rows, and the
  concatenation [router rows (64); gate row (1); zero rows (63)] of 128 rows. None of the three operations writes an
  argument array, so the region finds `x`, the router matrix and the gate row exactly as the program was launched with
  them. This module names the buffers' contents at region entry (`V`), shows the program is "host prefix, then the
  region", reads each window's block at a grid point off `V`, and derives the frame statement (termination, no fault,
  arguments unchanged) from any run of the region that ends in the pipeline's own postcondition.
-/
import proofs.«168152_g7705171329365_cont_9to1_m_101_15_alg».proof.Proof.Gen.Kernel.Launch
import proofs.«168152_g7705171329365_cont_9to1_m_101_15_alg».proof.Proof.Gen.Kernel.Skeleton
import proofs.«168152_g7705171329365_cont_9to1_m_101_15_alg».proof.Proof.Gen.Kernel.Points
import Idealize.ShloMosaic.Lib.Pipeline.FrameBody
import Idealize.ShloMosaic.Lib.Ring
import Idealize.ShloMosaic.Lib.Tactic

-- deciding membership in rectangles of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at region entry -/

/-- Core `c`'s buffers when the region is entered: the launch contents after the three host operations. -/
abbrev V (c : Dev nD) (b : Ref sig .tc) : Buf (Elt F) ((c : Thread nD τ).loc b) := StableHlo.after hostOps0 (fun b => m (c, b)) b

/-- No host operation before the region allocates a buffer. -/
theorem hostOps0_fresh : (hostOps0 : List (HloOp τ sig (Elt F))).Forall fun op => op.fresh = ∅ := by
  simp only [List.Forall]; repeat' constructor

/-- The program is its host prefix followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host prefix writes the zero scalar, the zero rows and the packed matrix only: `x` is as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- Likewise the router matrix. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- Likewise the gate row. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The token window's staging buffer holds the point's 1024 token rows before the body runs, whatever the proof data,
    as long as its array is the entry contents and the body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The weight window's staging buffer holds the whole packed matrix at every point: it is fetched at the first point
    and its block index never moves. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame statement from a run of the region -/

/-- For proof data whose arrays are the entry contents, a run that ends in the pipeline's postcondition leaves the three
    arguments unchanged: `x` is the array of an input window, never written back; the router matrix and the gate row are
    staged by no window and keep their entry contents; and entry contents of all three are the launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

end Cert.Kernel.Hand

end
-- ==== Proof.KernelBody.lean ====
/-
  The kernel body on one grid point.

  The body reads the whole packed weight matrix once and then treats the point's 1024 token rows in four bands of 256:
  for each band it loads the rows, forms the band's [256, 128] products with the weight rows, and stores the band's scores
  (columns 0–63, soft-maxed along the row) into the same band of the scores buffer and the band's gate (the logistic of
  column 64) into the same band of the gate buffer. The four stores into each output buffer are disjoint row bands
  [0, 256), [256, 512), [512, 768), [768, 1024) that tile it, so after the body each output buffer is a function of the
  two input buffers alone — whatever it held before, and whatever the body's (unused) reads of it returned.
-/
import proofs.«168152_g7705171329365_cont_9to1_m_101_15_alg».proof.Proof.KernelEntry

-- deciding membership in rectangles of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the body touches -/

/-- The whole packed weight buffer. -/
abbrev rW : Rect S128x4096 := Rect.unit (s := S128x4096) ![0, 0] S128x4096.size inb_S128x4096_S128x4096_0_0
/-- The four token-row bands of the token buffer. -/
abbrev rX0 : Rect S1024x4096 := Rect.unit (s := S1024x4096) ![0, 0] S256x4096.size inb_S1024x4096_S256x4096_0_0
abbrev rX1 : Rect S1024x4096 := Rect.unit (s := S1024x4096) ![256, 0] S256x4096.size inb_S1024x4096_S256x4096_256_0
abbrev rX2 : Rect S1024x4096 := Rect.unit (s := S1024x4096) ![512, 0] S256x4096.size inb_S1024x4096_S256x4096_512_0
abbrev rX3 : Rect S1024x4096 := Rect.unit (s := S1024x4096) ![768, 0] S256x4096.size inb_S1024x4096_S256x4096_768_0
/-- The same bands of the scores buffer. -/
abbrev rS0 : Rect S1024x64 := Rect.unit (s := S1024x64) ![0, 0] S256x64.size inb_S1024x64_S256x64_0_0
abbrev rS1 : Rect S1024x64 := Rect.unit (s := S1024x64) ![256, 0] S256x64.size inb_S1024x64_S256x64_256_0
abbrev rS2 : Rect S1024x64 := Rect.unit (s := S1024x64) ![512, 0] S256x64.size inb_S1024x64_S256x64_512_0
abbrev rS3 : Rect S1024x64 := Rect.unit (s := S1024x64) ![768, 0] S256x64.size inb_S1024x64_S256x64_768_0
/-- The same bands of the gate buffer. -/
abbrev rG0 : Rect S1024x1 := Rect.unit (s := S1024x1) ![0, 0] S256x1.size inb_S1024x1_S256x1_0_0
abbrev rG1 : Rect S1024x1 := Rect.unit (s := S1024x1) ![256, 0] S256x1.size inb_S1024x1_S256x1_256_0
abbrev rG2 : Rect S1024x1 := Rect.unit (s := S1024x1) ![512, 0] S256x1.size inb_S1024x1_S256x1_512_0
abbrev rG3 : Rect S1024x1 := Rect.unit (s := S1024x1) ![768, 0] S256x1.size inb_S1024x1_S256x1_768_0

/-! ## What the body leaves in the two output buffers -/

/-- The scores buffer after the body: band `j` holds the scores payload of the weight block and token band `j`
    (the pieces listed last store first). -/
def outScores (x0 : Vec F S1024x4096 .f32) (x1 : Vec F S128x4096 .f32) : Vec F S1024x64 .f32 :=
  View.canon [⟨rS3, k0_pay5 (k0_pay7 (View.ld x1 rW)) (View.ld x0 rX3)⟩,
    ⟨rS2, k0_pay2 (k0_pay7 (View.ld x1 rW)) (View.ld x0 rX2)⟩,
    ⟨rS1, k0_pay12 (View.ld x1 rW) (View.ld x0 rX1)⟩,
    ⟨rS0, k0_pay9 (View.ld x1 rW) (View.ld x0 rX0)⟩]

/-- The gate buffer after the body, band by band likewise. -/
def outGate (x0 : Vec F S1024x4096 .f32) (x1 : Vec F S128x4096 .f32) : Vec F S1024x1 .f32 :=
  View.canon [⟨rG3, k0_pay6 (k0_pay7 (View.ld x1 rW)) (View.ld x0 rX3)⟩,
    ⟨rG2, k0_pay3 (k0_pay7 (View.ld x1 rW)) (View.ld x0 rX2)⟩,
    ⟨rG1, k0_pay13 (View.ld x1 rW) (View.ld x0 rX1)⟩,
    ⟨rG0, k0_pay10 (View.ld x1 rW) (View.ld x0 rX0)⟩]

/-- The four score bands tile the scores buffer. -/
theorem coverScores (p0 p1 p2 p3 : Vec F S256x64 .f32) (y : S1024x64.Idx) :
    ∃ pc ∈ ([⟨rS3, p0⟩, ⟨rS2, p1⟩, ⟨rS1, p2⟩, ⟨rS0, p3⟩] : List (View.Piece (Elt F) S1024x64 .f32)), y ∈ pc.1.set :=
  View.cover_of_tiled [⟨rS3, p0⟩, ⟨rS2, p1⟩, ⟨rS1, p2⟩, ⟨rS0, p3⟩] S256x64.size (by rfl) y

/-- The four gate bands tile the gate buffer. -/
theorem coverGate (p0 p1 p2 p3 : Vec F S256x1 .f32) (y : S1024x1.Idx) :
    ∃ pc ∈ ([⟨rG3, p0⟩, ⟨rG2, p1⟩, ⟨rG1, p2⟩, ⟨rG0, p3⟩] : List (View.Piece (Elt F) S1024x1 .f32)), y ∈ pc.1.set :=
  View.cover_of_tiled [⟨rG3, p0⟩, ⟨rG2, p1⟩, ⟨rG1, p2⟩, ⟨rG0, p3⟩] S256x1.size (by rfl) y

/-! ## The body's triple -/

set_option maxHeartbeats 1000000 in
/-- Run on whole buffers — the token and weight buffers at known contents, the two output buffers at any contents — the
    body terminates without a fault, leaves the inputs as they were and the outputs at `outScores` and `outGate` of the
    inputs. -/
theorem sound_kernel (c : Dev nD) (E : Set ℕ) (i : grid0.Coords) (arg1 : Memref sig .tc .vmem S1024x4096 .f32) (harg1 : arg1.IsWhole) (arg2 : Memref sig .tc .vmem S128x4096 .f32) (harg2 : arg2.IsWhole) (arg3 : Memref sig .tc .vmem S1024x64 .f32) (harg3 : arg3.IsWhole) (arg4 : Memref sig .tc .vmem S1024x1 .f32) (harg4 : arg4.IsWhole)
    (x0 : Vec F S1024x4096 .f32) (x1 : Vec F S128x4096 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (outScores x0 x1) ∗ owns (c : Thread nD τ) arg4 fullShare (outGate x0 x1)) -∗ K ⟨⟩))
      ⊢ wp frame (wpE (defs₀ (F := F)) Variants.none c none) E (cc0__router_kernel i arg1 harg1 arg2 harg2 arg3 harg3 arg4 harg4) K := by
  simp only [cc0__router_kernel_eq_skeleton]; unfold cc0__router_kernel_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    try dsimp only
    exact View.read_writes_eq_canon _ _ _ (coverScores _ _ _ _)
  iexists _; isplitr
  swap; · iexact H3
  ipureintro
  try dsimp only
  exact View.read_writes_eq_canon _ _ _ (coverGate _ _ _ _)

end Cert.Kernel.Hand

end
-- ==== Proof.KernelRun.lean ====
/-
  The region's run.

  The pipeline's proof data says, per window and grid point, what the window's staging buffer holds after the body: the
  token window still holds the point's token rows and the weight window the packed matrix (the body only reads them), and
  the two output windows hold `outScores` / `outGate` of those two blocks. With that, the body's triple discharges the
  pipeline's obligation at every point, the pipeline's run theorem gives a run of the whole program — host prefix, then the
  32 points with their fetches and write-backs — and the frame statement follows.
-/
import proofs.«168152_g7705171329365_cont_9to1_m_101_15_alg».proof.Proof.KernelBody

-- deciding membership in rectangles of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- On core `c`: the arrays as the region finds them; after the body at point `t` each input's buffer at its block and
    each output's at the body's result on the two input blocks; nothing else owned, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outScores (iblk m c 0 t) (iblk m c 1 t)
    | ⟨3, _⟩ => outGate (iblk m c 0 t) (iblk m c 1 t)
  Φ _ := Pipeline.ΦA spec0 c
  q _ := fullShare
  owed _ := 0

/-- The proof data's arrays are the entry contents (by projection, never by unfolding `V`). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outScores (iblk m c 0 t) (iblk m c 1 t) := by dsimp only [dats]
theorem after0_3 (c : Dev nD) (t : Fin cfg0.N) : (dats m 0 c).after 3 t = outGate (iblk m c 0 t) (iblk m c 1 t) := by dsimp only [dats]

/-- Before the body at any point the token buffer holds the point's rows, -/
theorem before0_0 (c : Dev nD) (t : Fin cfg0.N) (d) : (dats m 0 c).before 0 t d = iblk m c 0 t :=
  before0_0_of m (dats m 0 c) (A_eq m c 0) (after0_0 m c) t d
/-- and the weight buffer the packed matrix. -/
theorem before0_1 (c : Dev nD) (t : Fin cfg0.N) (d) : (dats m 0 c).before 1 t d = iblk m c 1 t :=
  before0_1_of m (dats m 0 c) (A_eq m c 1) (after0_1 m c) t d

/-! ## The body obligation at a generic point -/

/-- What the body is called with at point `t`, the four windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the input buffers hold their blocks, so the body's triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unifying its conclusion with this one, which unfolds plain
-- definitions in a metavariable's type
set_option backward.isDefEq.respectTransparency.types false in
/-- From any memory with zero counters every weakly fair execution of the program terminates without a fault, and in the
    final state every array of the pipeline is what the proof data computes and every other unscoped buffer is as the
    region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program terminates, nothing faults, and the three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Hand

end
-- ==== Proof.IdealEntry.lean ====
/-
  The program up to its one kernel region.

  Before the region the host builds the packed weight matrix: a zero scalar, its broadcast to 63 rows, and the
  concatenation [router rows (64); gate row (1); zero rows (63)] of 128 rows. None of the three operations writes an
  argument array, so the region finds `x`, the router matrix and the gate row exactly as the program was launched with
  them. This module names the buffers' contents at region entry (`V`), shows the program is "host prefix, then the
  region", reads each window's block at a grid point off `V`, and derives the frame statement (termination, no fault,
  arguments unchanged) from any run of the region that ends in the pipeline's own postcondition.
-/
import proofs.«168152_g7705171329365_cont_9to1_m_101_15_alg».proof.Proof.Gen.KernelIdeal.Launch
import proofs.«168152_g7705171329365_cont_9to1_m_101_15_alg».proof.Proof.Gen.KernelIdeal.Skeleton
import proofs.«168152_g7705171329365_cont_9to1_m_101_15_alg».proof.Proof.Gen.KernelIdeal.Points
import Idealize.ShloMosaic.Lib.Pipeline.FrameBody
import Idealize.ShloMosaic.Lib.Ring
import Idealize.ShloMosaic.Lib.Tactic

-- deciding membership in rectangles of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at region entry -/

/-- Core `c`'s buffers when the region is entered: the launch contents after the three host operations. -/
abbrev V (c : Dev nD) (b : Ref sig .tc) : Buf (Elt F) ((c : Thread nD τ).loc b) := StableHlo.after hostOps0 (fun b => m (c, b)) b

/-- No host operation before the region allocates a buffer. -/
theorem hostOps0_fresh : (hostOps0 : List (HloOp τ sig (Elt F))).Forall fun op => op.fresh = ∅ := by
  simp only [List.Forall]; repeat' constructor

/-- The program is its host prefix followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host prefix writes the zero scalar, the zero rows and the packed matrix only: `x` is as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- Likewise the router matrix. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))
/-- Likewise the gate row. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.nary_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The token window's staging buffer holds the point's 1024 token rows before the body runs, whatever the proof data,
    as long as its array is the entry contents and the body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The weight window's staging buffer holds the whole packed matrix at every point: it is fetched at the first point
    and its block index never moves. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame statement from a run of the region -/

/-- For proof data whose arrays are the entry contents, a run that ends in the pipeline's postcondition leaves the three
    arguments unchanged: `x` is the array of an input window, never written back; the router matrix and the gate row are
    staged by no window and keep their entry contents; and entry contents of all three are the launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

end Cert.KernelIdeal.Hand

end
-- ==== Proof.IdealBody.lean ====
/-
  The kernel body on one grid point.

  The body reads the whole packed weight matrix once and then treats the point's 1024 token rows in four bands of 256:
  for each band it loads the rows, forms the band's [256, 128] products with the weight rows, and stores the band's scores
  (columns 0–63, soft-maxed along the row) into the same band of the scores buffer and the band's gate (the logistic of
  column 64) into the same band of the gate buffer. The four stores into each output buffer are disjoint row bands
  [0, 256), [256, 512), [512, 768), [768, 1024) that tile it, so after the body each output buffer is a function of the
  two input buffers alone — whatever it held before, and whatever the body's (unused) reads of it returned.
-/
import proofs.«168152_g7705171329365_cont_9to1_m_101_15_alg».proof.Proof.IdealEntry

-- deciding membership in rectangles of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the body touches -/

/-- The whole packed weight buffer. -/
abbrev rW : Rect S128x4096 := Rect.unit (s := S128x4096) ![0, 0] S128x4096.size inb_S128x4096_S128x4096_0_0
/-- The four token-row bands of the token buffer. -/
abbrev rX0 : Rect S1024x4096 := Rect.unit (s := S1024x4096) ![0, 0] S256x4096.size inb_S1024x4096_S256x4096_0_0
abbrev rX1 : Rect S1024x4096 := Rect.unit (s := S1024x4096) ![256, 0] S256x4096.size inb_S1024x4096_S256x4096_256_0
abbrev rX2 : Rect S1024x4096 := Rect.unit (s := S1024x4096) ![512, 0] S256x4096.size inb_S1024x4096_S256x4096_512_0
abbrev rX3 : Rect S1024x4096 := Rect.unit (s := S1024x4096) ![768, 0] S256x4096.size inb_S1024x4096_S256x4096_768_0
/-- The same bands of the scores buffer. -/
abbrev rS0 : Rect S1024x64 := Rect.unit (s := S1024x64) ![0, 0] S256x64.size inb_S1024x64_S256x64_0_0
abbrev rS1 : Rect S1024x64 := Rect.unit (s := S1024x64) ![256, 0] S256x64.size inb_S1024x64_S256x64_256_0
abbrev rS2 : Rect S1024x64 := Rect.unit (s := S1024x64) ![512, 0] S256x64.size inb_S1024x64_S256x64_512_0
abbrev rS3 : Rect S1024x64 := Rect.unit (s := S1024x64) ![768, 0] S256x64.size inb_S1024x64_S256x64_768_0
/-- The same bands of the gate buffer. -/
abbrev rG0 : Rect S1024x1 := Rect.unit (s := S1024x1) ![0, 0] S256x1.size inb_S1024x1_S256x1_0_0
abbrev rG1 : Rect S1024x1 := Rect.unit (s := S1024x1) ![256, 0] S256x1.size inb_S1024x1_S256x1_256_0
abbrev rG2 : Rect S1024x1 := Rect.unit (s := S1024x1) ![512, 0] S256x1.size inb_S1024x1_S256x1_512_0
abbrev rG3 : Rect S1024x1 := Rect.unit (s := S1024x1) ![768, 0] S256x1.size inb_S1024x1_S256x1_768_0

/-! ## What the body leaves in the two output buffers -/

/-- The scores buffer after the body: band `j` holds the scores payload of the weight block and token band `j`
    (the pieces listed last store first). -/
def outScores (x0 : Vec F S1024x4096 .f32) (x1 : Vec F S128x4096 .f32) : Vec F S1024x64 .f32 :=
  View.canon [⟨rS3, k0_pay5 (k0_pay7 (View.ld x1 rW)) (View.ld x0 rX3)⟩,
    ⟨rS2, k0_pay2 (k0_pay7 (View.ld x1 rW)) (View.ld x0 rX2)⟩,
    ⟨rS1, k0_pay12 (View.ld x1 rW) (View.ld x0 rX1)⟩,
    ⟨rS0, k0_pay9 (View.ld x1 rW) (View.ld x0 rX0)⟩]

/-- The gate buffer after the body, band by band likewise. -/
def outGate (x0 : Vec F S1024x4096 .f32) (x1 : Vec F S128x4096 .f32) : Vec F S1024x1 .f32 :=
  View.canon [⟨rG3, k0_pay6 (k0_pay7 (View.ld x1 rW)) (View.ld x0 rX3)⟩,
    ⟨rG2, k0_pay3 (k0_pay7 (View.ld x1 rW)) (View.ld x0 rX2)⟩,
    ⟨rG1, k0_pay13 (View.ld x1 rW) (View.ld x0 rX1)⟩,
    ⟨rG0, k0_pay10 (View.ld x1 rW) (View.ld x0 rX0)⟩]

/-- The four score bands tile the scores buffer. -/
theorem coverScores (p0 p1 p2 p3 : Vec F S256x64 .f32) (y : S1024x64.Idx) :
    ∃ pc ∈ ([⟨rS3, p0⟩, ⟨rS2, p1⟩, ⟨rS1, p2⟩, ⟨rS0, p3⟩] : List (View.Piece (Elt F) S1024x64 .f32)), y ∈ pc.1.set :=
  View.cover_of_tiled [⟨rS3, p0⟩, ⟨rS2, p1⟩, ⟨rS1, p2⟩, ⟨rS0, p3⟩] S256x64.size (by rfl) y

/-- The four gate bands tile the gate buffer. -/
theorem coverGate (p0 p1 p2 p3 : Vec F S256x1 .f32) (y : S1024x1.Idx) :
    ∃ pc ∈ ([⟨rG3, p0⟩, ⟨rG2, p1⟩, ⟨rG1, p2⟩, ⟨rG0, p3⟩] : List (View.Piece (Elt F) S1024x1 .f32)), y ∈ pc.1.set :=
  View.cover_of_tiled [⟨rG3, p0⟩, ⟨rG2, p1⟩, ⟨rG1, p2⟩, ⟨rG0, p3⟩] S256x1.size (by rfl) y

/-! ## The body's triple -/

set_option maxHeartbeats 1000000 in
/-- Run on whole buffers — the token and weight buffers at known contents, the two output buffers at any contents — the
    body terminates without a fault, leaves the inputs as they were and the outputs at `outScores` and `outGate` of the
    inputs. -/
theorem sound_kernel (c : Dev nD) (E : Set ℕ) (i : grid0.Coords) (arg1 : Memref sig .tc .vmem S1024x4096 .f32) (harg1 : arg1.IsWhole) (arg2 : Memref sig .tc .vmem S128x4096 .f32) (harg2 : arg2.IsWhole) (arg3 : Memref sig .tc .vmem S1024x64 .f32) (harg3 : arg3.IsWhole) (arg4 : Memref sig .tc .vmem S1024x1 .f32) (harg4 : arg4.IsWhole)
    (x0 : Vec F S1024x4096 .f32) (x1 : Vec F S128x4096 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (outScores x0 x1) ∗ owns (c : Thread nD τ) arg4 fullShare (outGate x0 x1)) -∗ K ⟨⟩))
      ⊢ wp frame (wpE (defs₀ (F := F)) Variants.none c none) E (cc0__router_kernel i arg1 harg1 arg2 harg2 arg3 harg3 arg4 harg4) K := by
  simp only [cc0__router_kernel_eq_skeleton]; unfold cc0__router_kernel_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    try dsimp only
    exact View.read_writes_eq_canon _ _ _ (coverScores _ _ _ _)
  iexists _; isplitr
  swap; · iexact H3
  ipureintro
  try dsimp only
  exact View.read_writes_eq_canon _ _ _ (coverGate _ _ _ _)

end Cert.KernelIdeal.Hand

end
-- ==== Proof.IdealRun.lean ====
/-
  The region's run.

  The pipeline's proof data says, per window and grid point, what the window's staging buffer holds after the body: the
  token window still holds the point's token rows and the weight window the packed matrix (the body only reads them), and
  the two output windows hold `outScores` / `outGate` of those two blocks. With that, the body's triple discharges the
  pipeline's obligation at every point, the pipeline's run theorem gives a run of the whole program — host prefix, then the
  32 points with their fetches and write-backs — and the frame statement follows.
-/
import proofs.«168152_g7705171329365_cont_9to1_m_101_15_alg».proof.Proof.IdealBody

-- deciding membership in rectangles of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- On core `c`: the arrays as the region finds them; after the body at point `t` each input's buffer at its block and
    each output's at the body's result on the two input blocks; nothing else owned, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outScores (iblk m c 0 t) (iblk m c 1 t)
    | ⟨3, _⟩ => outGate (iblk m c 0 t) (iblk m c 1 t)
  Φ _ := Pipeline.ΦA spec0 c
  q _ := fullShare
  owed _ := 0

/-- The proof data's arrays are the entry contents (by projection, never by unfolding `V`). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outScores (iblk m c 0 t) (iblk m c 1 t) := by dsimp only [dats]
theorem after0_3 (c : Dev nD) (t : Fin cfg0.N) : (dats m 0 c).after 3 t = outGate (iblk m c 0 t) (iblk m c 1 t) := by dsimp only [dats]

/-- Before the body at any point the token buffer holds the point's rows, -/
theorem before0_0 (c : Dev nD) (t : Fin cfg0.N) (d) : (dats m 0 c).before 0 t d = iblk m c 0 t :=
  before0_0_of m (dats m 0 c) (A_eq m c 0) (after0_0 m c) t d
/-- and the weight buffer the packed matrix. -/
theorem before0_1 (c : Dev nD) (t : Fin cfg0.N) (d) : (dats m 0 c).before 1 t d = iblk m c 1 t :=
  before0_1_of m (dats m 0 c) (A_eq m c 1) (after0_1 m c) t d

/-! ## The body obligation at a generic point -/

/-- What the body is called with at point `t`, the four windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the input buffers hold their blocks, so the body's triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unifying its conclusion with this one, which unfolds plain
-- definitions in a metavariable's type
set_option backward.isDefEq.respectTransparency.types false in
/-- From any memory with zero counters every weakly fair execution of the program terminates without a fault, and in the
    final state every array of the pipeline is what the proof data computes and every other unscoped buffer is as the
    region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program terminates, nothing faults, and the three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.LibNary3.lean ====
/-
  A host operation over a LITERAL family of three references (a three-operand `stablehlo.concatenate` prints as
  `StableHlo.nary ![a, b, c] y f`): its result at its own result buffer, with each operand's contents read AT ITS OWN
  REFERENCE — `Fin.cons (F a) (Fin.cons (F b) (Fin.cons (F c) _))` in place of `fun k => F (![a, b, c] k)` —, so that
  rewriting can go on into the operands' contents (under the binder `![a, b, c] k` is no literal reference). The library
  states this for four references; this is the same statement for three, for any signature and value type.
-/
import Idealize.ShloMosaic.Lib.StableHlo.Run

namespace Idealize.ShloMosaic.StableHlo

open Idealize.ShloMosaic Idealize.SL.Sem

variable {τ : Topo} {sig : RefSig} {Val : EltTy → Type}
variable {x a b y : Ref sig .tc}

/-- `nary` over three literal references: the function applied to the three operands' contents, each at its reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Idealize.ShloMosaic.StableHlo
-- ==== Proof.RouterSpec.lean ====
/-
  The mathematics both programs compute, stated once over plain index sets.

  A token is a row of `x`; an expert is a row of the router matrix. The token's logits are its dot products with the
  expert rows, its scores the softmax of those logits in the max-shifted form
  `exp (l e - max l) / Σ_e' exp (l e' - max l)`, and its shared gate the logistic `1 / (1 + exp (-z))` of its dot product `z`
  with the single gate row. Everything is over the extended reals: a sum of products, a maximum, an exponential and a
  quotient, with no appeal to finiteness (only commutativity and associativity of `+` and `max` are ever used to compare
  two spellings of these values).
-/
import Idealize.ShloMosaic.PureOps.Ideal
import Idealize.ShloMosaic.Lib.ValueIdx

noncomputable section

open scoped BigOperators

namespace Cert.RouterSpec

open Idealize.ShloMosaic Idealize.ShloMosaic.ValueIdx

/-- The largest entry of a finite row of extended reals (`-∞` for the empty row). -/
def rowMax {n : ℕ} (l : Fin n → EReal) : EReal := Finset.univ.fold max (⊥ : EReal) l

/-- Softmax of the row `l` at entry `e`, shifted by the row's maximum. -/
def softmaxRow {n : ℕ} (l : Fin n → EReal) (e : Fin n) : EReal :=
  Ideal.div (Ideal.exp (l e - rowMax l)) (∑ e' : Fin n, Ideal.exp (l e' - rowMax l))

/-- Row `r` of an `[R, D]` matrix against row `e` of an `[E, D]` matrix: the sum over the `D` columns of the products. -/
def rowDot {R E D : ℕ} (x : (⟨2, ![R, D]⟩ : Shape).Idx → EReal) (w : (⟨2, ![E, D]⟩ : Shape).Idx → EReal)
    (r : Fin R) (e : Fin E) : EReal :=
  ∑ k : Fin D, x (ix2 r k) * w (ix2 e k)

/-- The router's scores: entry `(r, e)` is the softmax, over the experts, of token `r`'s logits, at expert `e`. -/
def scores {R E D : ℕ} (x : (⟨2, ![R, D]⟩ : Shape).Idx → EReal) (w : (⟨2, ![E, D]⟩ : Shape).Idx → EReal) :
    (⟨2, ![R, E]⟩ : Shape).Idx → EReal :=
  fun i => softmaxRow (fun e' => rowDot x w (i 0) e') (i 1)

/-- The shared gate: entry `(r, 0)` is the logistic of token `r` against the one gate row. -/
def gate {R D : ℕ} (x : (⟨2, ![R, D]⟩ : Shape).Idx → EReal) (g : (⟨2, ![1, D]⟩ : Shape).Idx → EReal) :
    (⟨2, ![R, 1]⟩ : Shape).Idx → EReal :=
  fun i => Ideal.logistic (rowDot x g (i 0) 0)

end Cert.RouterSpec

end
-- ==== Proof.BlockValues.lean ====
import proofs.«168152_g7705171329365_cont_9to1_m_101_15_alg».proof.Proof.Gen.KernelIdeal.Skeleton
import proofs.«168152_g7705171329365_cont_9to1_m_101_15_alg».proof.Proof.RouterSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.BlockValues

open Cert.KernelIdeal Cert.KernelIdeal.Gen Idealize.ShloMosaic Idealize.ShloMosaic.ValueIdx

/-- Expert `e`'s row among the 128 rows of the packed weight matrix. -/
abbrev expertRow (e : Fin 64) : Fin 128 := Fin.castLE (by decide) e

/-- The gate's row of the packed weight matrix. -/
abbrev gateRow : Fin 128 := 64

/-! ## The product of a token block with the packed weight block, read at an entry

Both operands are contracted along their second axis (the 4096 model dimensions), so entry `(p, c)` of the product is the
dot product of row `p` of the tokens with row `c` of the weights. -/

/-- The left operand's index keeps the output row on its first axis … -/
theorem lhs_axis0 (i : S256x128.Idx) (q : dot_S256x4096_S128x4096_S256x128_1_1_0_0_n_n.contr.Idx) :
    (dot_S256x4096_S128x4096_S256x128_1_1_0_0_n_n.lhsIdx i q 0).val = (i 0).val := by
  unfold DotDims.lhsIdx
  rw [dif_neg (show ¬(0 : Fin S256x4096.rank) ∈ dot_S256x4096_S128x4096_S256x128_1_1_0_0_n_n.lhsBatch by decide),
    dif_pos (show (0 : Fin S256x4096.rank) ∈ dot_S256x4096_S128x4096_S256x128_1_1_0_0_n_n.lhsNonContracting by decide)]
  rfl
/-- … and carries the contraction coordinate on its second. -/
theorem lhs_axis1 (i : S256x128.Idx) (q : dot_S256x4096_S128x4096_S256x128_1_1_0_0_n_n.contr.Idx) :
    (dot_S256x4096_S128x4096_S256x128_1_1_0_0_n_n.lhsIdx i q 1).val = (q ⟨0, by decide⟩).val :=
  dot_S256x4096_S128x4096_S256x128_1_1_0_0_n_n.lhsIdx_val_of_single rfl i q
/-- The right operand's index keeps the output column on its first axis … -/
theorem rhs_axis0 (i : S256x128.Idx) (q : dot_S256x4096_S128x4096_S256x128_1_1_0_0_n_n.contr.Idx) :
    (dot_S256x4096_S128x4096_S256x128_1_1_0_0_n_n.rhsIdx i q 0).val = (i 1).val := by
  unfold DotDims.rhsIdx
  rw [dif_neg (show ¬(0 : Fin S128x4096.rank) ∈ dot_S256x4096_S128x4096_S256x128_1_1_0_0_n_n.rhsBatch by decide),
    dif_pos (show (0 : Fin S128x4096.rank) ∈ dot_S256x4096_S128x4096_S256x128_1_1_0_0_n_n.rhsNonContracting by decide)]
  rfl
/-- … and carries the contraction coordinate on its second. -/
theorem rhs_axis1 (i : S256x128.Idx) (q : dot_S256x4096_S128x4096_S256x128_1_1_0_0_n_n.contr.Idx) :
    (dot_S256x4096_S128x4096_S256x128_1_1_0_0_n_n.rhsIdx i q 1).val = (q ⟨0, by decide⟩).val :=
  dot_S256x4096_S128x4096_S256x128_1_1_0_0_n_n.rhsIdx_val_of_single rfl i q

/-- Entry `(p, c)` of the product accumulated into zero is the dot product of token row `p` with weight row `c`. -/
theorem matmul_entry (x : FVec Ideal S256x4096 .f32) (w : FVec Ideal S128x4096 .f32) (p : Fin 256) (c : Fin 128) :
    matmul dot_S256x4096_S128x4096_S256x128_1_1_0_0_n_n none x w (constant (F := Ideal) S256x128 .f32 0x00000000#32) (ix2 p c)
      = Cert.RouterSpec.rowDot x w p c := by
  unfold Cert.RouterSpec.rowDot
  refine (Ideal.matmul_constant_zero_apply dot_S256x4096_S128x4096_S256x128_1_1_0_0_n_n none x w (ix2 p c)).trans ?_
  rw [← Equiv.sum_comp (contrEquiv1 dot_S256x4096_S128x4096_S256x128_1_1_0_0_n_n 4096 rfl rfl).symm]
  refine Finset.sum_congr rfl fun k _ => ?_
  have hk := contrEquiv1_symm_val dot_S256x4096_S128x4096_S256x128_1_1_0_0_n_n 4096 rfl rfl k
  have el : dot_S256x4096_S128x4096_S256x128_1_1_0_0_n_n.lhsIdx (ix2 p c)
      ((contrEquiv1 dot_S256x4096_S128x4096_S256x128_1_1_0_0_n_n 4096 rfl rfl).symm k) = ix2 p k :=
    funext fun a => Fin.ext (by
      match a with
      | ⟨0, _⟩ => exact lhs_axis0 _ _
      | ⟨1, _⟩ => exact (lhs_axis1 _ _).trans hk)
  have er : dot_S256x4096_S128x4096_S256x128_1_1_0_0_n_n.rhsIdx (ix2 p c)
      ((contrEquiv1 dot_S256x4096_S128x4096_S256x128_1_1_0_0_n_n 4096 rfl rfl).symm k) = ix2 c k :=
    funext fun a => Fin.ext (by
      match a with
      | ⟨0, _⟩ => exact rhs_axis0 _ _
      | ⟨1, _⟩ => exact (rhs_axis1 _ _).trans hk)
  rw [el, er]

/-! ## The two layout steps that re-lay a per-row value along the row

A reduction along the row leaves one value per row, indexed by the row alone; the body views it as a one-column matrix
and then repeats that column across the row. -/

section Layout
variable {α : Type}

/-- An `[a]` vector viewed as an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column repeated across `b` columns reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A per-row value of a 256-row block, repeated along the 64 columns of the row. -/
def alongRow (v : FVec Ideal S256 .f32) : FVec Ideal S256x64 .f32 :=
  broadcastTo S256x64 (shapeCast S256x1 v shapeCasts_S256_S256x1) broadcasts_S256x1_S256x64

/-- At `(p, q)` it is the value of row `p`. -/
theorem alongRow_entry (v : FVec Ideal S256 .f32) (p : Fin 256) (q : Fin 64) : alongRow v (ix2 p q) = v (ix1 p) :=
  (broadcastTo_a1_ab_apply _ broadcasts_S256x1_S256x64 p q).trans (shapeCast_a_a1_apply v shapeCasts_S256_S256x1 p 0)

/-! ## A row's maximum and a row's sum -/

/-- Inserting column `k` into the row index `p` of a `[256, 64]` block gives the entry `(p, k)`. -/
theorem lift_row (h : S256x64.Reduces [1] S256) (p : Fin 256) (k : Fin 64) : h.lift (ix1 p) k = ix2 p k :=
  funext fun a => Fin.ext (by
    match a with
    | ⟨0, _⟩ => rfl
    | ⟨1, _⟩ => rfl)

/-- The bit pattern the row maximum starts from is `-∞`, the bottom of the extended reals. -/
theorem ofBits_neg_inf : Ideal.ofBits .f32 0xFF800000#32 = (⊥ : EReal) := by simp [Ideal.ofBits, Ideal.ieee]

/-- The maximum along the row, started from `-∞`, at row `p`: the largest of the row's 64 entries. -/
theorem rowMax_entry (s : FVec Ideal S256x64 .f32) (h : S256x64.Reduces [1] S256) (p : Fin 256) :
    multiReduction (F := Ideal) .maximumf [1] S256 s 0xFF800000#32 h (.inl rfl) rfl (ix1 p)
      = Cert.RouterSpec.rowMax (fun e : Fin 64 => s (ix2 p e)) := by
  refine (Ideal.multiReduction_maximumf_single s _ h _ _ (ix1 p)).trans ?_
  show (Finset.univ : Finset (Fin 64)).fold max (Ideal.ofBits .f32 0xFF800000#32) (fun e : Fin 64 => s (h.lift (ix1 p) e)) = _
  rw [ofBits_neg_inf]
  unfold Cert.RouterSpec.rowMax
  exact congrArg (Finset.univ.fold max ⊥) (funext fun e => congrArg s (lift_row h p e))

/-- The sum along the row, started from zero, at row `p`: the sum of the row's 64 entries. -/
theorem rowSum_entry (s : FVec Ideal S256x64 .f32) (h : S256x64.Reduces [1] S256) (p : Fin 256) :
    multiReduction (F := Ideal) .add [1] S256 s 0x00000000#32 h (.inl rfl) rfl (ix1 p) = ∑ e : Fin 64, s (ix2 p e) := by
  refine (Ideal.multiReduction_add_single s _ h _ _ (ix1 p)).trans ?_
  show ∑ e : Fin 64, s (h.lift (ix1 p) e) = _
  exact Finset.sum_congr rfl fun e _ => congrArg s (lift_row h p e)

/-! ## Softmax along the rows of a `[256, 64]` block -/

/-- Each entry less its row's maximum, exponentiated. -/
def shifted (s : FVec Ideal S256x64 .f32) : FVec Ideal S256x64 .f32 :=
  exp (subf s (alongRow (multiReduction .maximumf [1] S256 s 0xFF800000#32 reduces_S256x64_S256 (.inl rfl) rfl)))

/-- Each entry divided by its row's sum. -/
def normalized (e : FVec Ideal S256x64 .f32) : FVec Ideal S256x64 .f32 :=
  divf e (alongRow (multiReduction .add [1] S256 e 0x00000000#32 reduces_S256x64_S256 (.inl rfl) rfl))

theorem shifted_entry (s : FVec Ideal S256x64 .f32) (p : Fin 256) (q : Fin 64) :
    shifted s (ix2 p q) = Ideal.exp (s (ix2 p q) - Cert.RouterSpec.rowMax (fun e : Fin 64 => s (ix2 p e))) := by
  show Ideal.exp (s (ix2 p q) - alongRow _ (ix2 p q)) = _
  rw [alongRow_entry, rowMax_entry]

theorem normalized_entry (e : FVec Ideal S256x64 .f32) (p : Fin 256) (q : Fin 64) :
    normalized e (ix2 p q) = Ideal.div (e (ix2 p q)) (∑ k : Fin 64, e (ix2 p k)) := by
  show Ideal.div (e (ix2 p q)) (alongRow _ (ix2 p q)) = _
  rw [alongRow_entry, rowSum_entry]

/-- The max-shifted softmax along the rows: at `(p, q)` it is the softmax of row `p` at column `q`. -/
theorem softmax_entry (s : FVec Ideal S256x64 .f32) (p : Fin 256) (q : Fin 64) :
    normalized (shifted s) (ix2 p q) = Cert.RouterSpec.softmaxRow (fun e : Fin 64 => s (ix2 p e)) q := by
  rw [normalized_entry]
  simp only [shifted_entry]
  rfl

/-! ## Scores and gate from a `[256, 128]` block of logits -/

/-- The scores a body computes from a block `X` of logits: the softmax along the rows of its first 64 columns. -/
def scoresBlock (X : FVec Ideal S256x128 .f32) : FVec Ideal S256x64 .f32 :=
  normalized (shifted (extractStridedSlice S256x64 ![0, 0] X slices_S256x128_o0_0_S256x64))

/-- The gate a body computes from a block `X` of logits: the logistic of its column 64. -/
def gateBlock (X : FVec Ideal S256x128 .f32) : FVec Ideal S256x1 .f32 :=
  logistic (extractStridedSlice S256x1 ![0, 64] X slices_S256x128_o0_64_S256x1)

/-- Entry `(p, q)` of the scores is the softmax, over the first 64 columns of row `p` of the logits, at column `q`. -/
theorem scoresBlock_entry (X : FVec Ideal S256x128 .f32) (p : Fin 256) (q : Fin 64) :
    scoresBlock X (ix2 p q) = Cert.RouterSpec.softmaxRow (fun e : Fin 64 => X (ix2 p (expertRow e))) q := by
  unfold scoresBlock
  rw [softmax_entry]
  have hS : ∀ e : Fin 64, extractStridedSlice S256x64 ![0, 0] X slices_S256x128_o0_0_S256x64 (ix2 p e) = X (ix2 p (expertRow e)) :=
    fun e => slice2_axis1_apply 0 X slices_S256x128_o0_0_S256x64 p e (expertRow e) (by simp)
  simp only [hS]

/-- Entry `(p, 0)` of the gate is the logistic of the logit at `(p, 64)`. -/
theorem gateBlock_entry (X : FVec Ideal S256x128 .f32) (p : Fin 256) :
    gateBlock X (ix2 p (0 : Fin 1)) = Ideal.logistic (X (ix2 p gateRow)) := by
  show Ideal.logistic (extractStridedSlice S256x1 ![0, 64] X slices_S256x128_o0_64_S256x1 (ix2 p (0 : Fin 1))) = _
  rw [slice2_axis1_apply 64 X slices_S256x128_o0_64_S256x1 p (0 : Fin 1) gateRow (by decide)]

/-! ## From tokens and weights to scores and gate -/

/-- The logits of a 256-token block against the packed weight block: their product accumulated into zero. -/
def logits (x : FVec Ideal S256x4096 .f32) (w : FVec Ideal S128x4096 .f32) : FVec Ideal S256x128 .f32 :=
  matmul dot_S256x4096_S128x4096_S256x128_1_1_0_0_n_n none x w (constant (F := Ideal) S256x128 .f32 0x00000000#32)

/-- Logit `(p, c)` is the dot product of token row `p` with weight row `c`. -/
theorem logits_entry (x : FVec Ideal S256x4096 .f32) (w : FVec Ideal S128x4096 .f32) (p : Fin 256) (c : Fin 128) :
    logits x w (ix2 p c) = Cert.RouterSpec.rowDot x w p c :=
  matmul_entry x w p c

/-- Scores from tokens and weights: the softmax, over the 64 expert rows, of token `p`'s dot products, at expert `q`. -/
theorem scores_of_logits (x : FVec Ideal S256x4096 .f32) (w : FVec Ideal S128x4096 .f32) (p : Fin 256) (q : Fin 64) :
    scoresBlock (logits x w) (ix2 p q)
      = Cert.RouterSpec.softmaxRow (fun e : Fin 64 => Cert.RouterSpec.rowDot x w p (expertRow e)) q := by
  rw [scoresBlock_entry]
  simp only [logits_entry]

/-- Gate from tokens and weights: the logistic of token `p`'s dot product with the gate row. -/
theorem gate_of_logits (x : FVec Ideal S256x4096 .f32) (w : FVec Ideal S128x4096 .f32) (p : Fin 256) :
    gateBlock (logits x w) (ix2 p (0 : Fin 1)) = Ideal.logistic (Cert.RouterSpec.rowDot x w p gateRow) := by
  rw [gateBlock_entry, logits_entry]

/-! ## The body's payloads -/

/-- The body's re-cast of the loaded weight block changes nothing. -/
theorem weights_cast (v0 : Vec Ideal S128x4096 .f32) : k0_pay7 (F := Ideal) v0 = v0 :=
  shapeCast_self v0 shapeCasts_S128x4096_S128x4096

/-- The first two sub-blocks multiply by the re-cast weight block, which is the weight block. -/
theorem pay8_eq (w : Vec Ideal S128x4096 .f32) (xb : Vec Ideal S256x4096 .f32) : k0_pay8 (F := Ideal) w xb = logits xb w := by
  show logits xb (k0_pay7 (F := Ideal) w) = _
  rw [weights_cast]
theorem pay11_eq (w : Vec Ideal S128x4096 .f32) (xb : Vec Ideal S256x4096 .f32) : k0_pay11 (F := Ideal) w xb = logits xb w := by
  show logits xb (k0_pay7 (F := Ideal) w) = _
  rw [weights_cast]

/-- Rows 0–255 of the block: scores. -/
theorem scores_q0 (w : Vec Ideal S128x4096 .f32) (xb : Vec Ideal S256x4096 .f32) (p : Fin 256) (q : Fin 64) :
    k0_pay9 (F := Ideal) w xb (ix2 p q)
      = Cert.RouterSpec.softmaxRow (fun e : Fin 64 => Cert.RouterSpec.rowDot xb w p (expertRow e)) q := by
  have h : k0_pay9 (F := Ideal) w xb = scoresBlock (k0_pay8 (F := Ideal) w xb) := rfl
  rw [h, pay8_eq]
  exact scores_of_logits xb w p q
/-- Rows 0–255 of the block: gate. -/
theorem gate_q0 (w : Vec Ideal S128x4096 .f32) (xb : Vec Ideal S256x4096 .f32) (p : Fin 256) :
    k0_pay10 (F := Ideal) w xb (ix2 p (0 : Fin 1)) = Ideal.logistic (Cert.RouterSpec.rowDot xb w p gateRow) := by
  have h : k0_pay10 (F := Ideal) w xb = gateBlock (k0_pay8 (F := Ideal) w xb) := rfl
  rw [h, pay8_eq]
  exact gate_of_logits xb w p
/-- Rows 256–511. -/
theorem scores_q1 (w : Vec Ideal S128x4096 .f32) (xb : Vec Ideal S256x4096 .f32) (p : Fin 256) (q : Fin 64) :
    k0_pay12 (F := Ideal) w xb (ix2 p q)
      = Cert.RouterSpec.softmaxRow (fun e : Fin 64 => Cert.RouterSpec.rowDot xb w p (expertRow e)) q := by
  have h : k0_pay12 (F := Ideal) w xb = scoresBlock (k0_pay11 (F := Ideal) w xb) := rfl
  rw [h, pay11_eq]
  exact scores_of_logits xb w p q
theorem gate_q1 (w : Vec Ideal S128x4096 .f32) (xb : Vec Ideal S256x4096 .f32) (p : Fin 256) :
    k0_pay13 (F := Ideal) w xb (ix2 p (0 : Fin 1)) = Ideal.logistic (Cert.RouterSpec.rowDot xb w p gateRow) := by
  have h : k0_pay13 (F := Ideal) w xb = gateBlock (k0_pay11 (F := Ideal) w xb) := rfl
  rw [h, pay11_eq]
  exact gate_of_logits xb w p
/-- Rows 512–767 (the weight block already re-cast). -/
theorem scores_q2 (w : FVec Ideal S128x4096 .f32) (xb : Vec Ideal S256x4096 .f32) (p : Fin 256) (q : Fin 64) :
    k0_pay2 (F := Ideal) w xb (ix2 p q)
      = Cert.RouterSpec.softmaxRow (fun e : Fin 64 => Cert.RouterSpec.rowDot xb w p (expertRow e)) q := by
  have h : k0_pay2 (F := Ideal) w xb = scoresBlock (logits xb w) := rfl
  rw [h]
  exact scores_of_logits xb w p q
theorem gate_q2 (w : FVec Ideal S128x4096 .f32) (xb : Vec Ideal S256x4096 .f32) (p : Fin 256) :
    k0_pay3 (F := Ideal) w xb (ix2 p (0 : Fin 1)) = Ideal.logistic (Cert.RouterSpec.rowDot xb w p gateRow) := by
  have h : k0_pay3 (F := Ideal) w xb = gateBlock (logits xb w) := rfl
  rw [h]
  exact gate_of_logits xb w p
/-- Rows 768–1023. -/
theorem scores_q3 (w : FVec Ideal S128x4096 .f32) (xb : Vec Ideal S256x4096 .f32) (p : Fin 256) (q : Fin 64) :
    k0_pay5 (F := Ideal) w xb (ix2 p q)
      = Cert.RouterSpec.softmaxRow (fun e : Fin 64 => Cert.RouterSpec.rowDot xb w p (expertRow e)) q := by
  have h : k0_pay5 (F := Ideal) w xb = scoresBlock (logits xb w) := rfl
  rw [h]
  exact scores_of_logits xb w p q
theorem gate_q3 (w : FVec Ideal S128x4096 .f32) (xb : Vec Ideal S256x4096 .f32) (p : Fin 256) :
    k0_pay6 (F := Ideal) w xb (ix2 p (0 : Fin 1)) = Ideal.logistic (Cert.RouterSpec.rowDot xb w p gateRow) := by
  have h : k0_pay6 (F := Ideal) w xb = gateBlock (logits xb w) := rfl
  rw [h]
  exact gate_of_logits xb w p

end Cert.KernelIdeal.BlockValues

end
-- ==== Proof.IdealValue.lean ====
/-
  What the idealized kernel's two result arrays hold after the run.

  At grid point `t` the token window holds rows `1024 t … 1024 t + 1023` of `x` and the weight window the whole packed
  matrix, whose row `e < 64` is row `e` of the router matrix and whose row 64 is the gate row (the concatenation read at
  an index). Row `a` of the body's scores buffer is therefore the softmax of token `1024 t + a`'s logits against the 64
  router rows, and row `a` of the gate buffer the logistic of that token's product with the gate row: band by band the
  body's four payloads are one function of the buffer index. Point `t` writes the two buffers back to rows
  `1024 t … 1024 t + 1023` of the result arrays, and the 32 points' row ranges tile the 32768 rows; so after the run the
  arrays are the router's scores and the shared gate of the argument arrays, index by index.
-/
import proofs.«168152_g7705171329365_cont_9to1_m_101_15_alg».proof.Proof.IdealRun
import proofs.«168152_g7705171329365_cont_9to1_m_101_15_alg».proof.Proof.LibNary3
import proofs.«168152_g7705171329365_cont_9to1_m_101_15_alg».proof.Proof.BlockValues
import Idealize.ShloMosaic.Lib.Pipeline.Value
import Idealize.ShloMosaic.Lib.ValueIdx

set_option maxRecDepth 16384

noncomputable section

open scoped BigOperators

namespace Cert.KernelIdeal.HandValue

open Cert.KernelIdeal Cert.KernelIdeal.Gen Cert.KernelIdeal.Hand Cert.KernelIdeal.BlockValues
open Idealize.ShloMosaic Idealize.ShloMosaic.TcCoe Idealize.SL.Sem Idealize.ShloMosaic.ValueIdx
open Idealize.ShloMosaic.Pipeline (Dat)
open Cert.RouterSpec

/-! ## Pure facts: a row's scores and gate depend only on the row and on the 65 weight rows it meets -/

/-- The scores of a row computed from any block that holds that row and those router rows. -/
theorem scores_row_congr {A B R E : ℕ} (xb : (⟨2, ![A, 4096]⟩ : Shape).Idx → EReal) (wb : (⟨2, ![B, 4096]⟩ : Shape).Idx → EReal)
    (X : (⟨2, ![R, 4096]⟩ : Shape).Idx → EReal) (W : (⟨2, ![E, 4096]⟩ : Shape).Idx → EReal)
    (a : Fin A) (g : Fin R) (row : Fin 64 → Fin B) (row' : Fin 64 → Fin E) (q : Fin 64)
    (hx : ∀ k : Fin 4096, xb (ix2 a k) = X (ix2 g k)) (hw : ∀ (e : Fin 64) (k : Fin 4096), wb (ix2 (row e) k) = W (ix2 (row' e) k)) :
    softmaxRow (fun e : Fin 64 => rowDot xb wb a (row e)) q = softmaxRow (fun e : Fin 64 => rowDot X W g (row' e)) q := by
  have h : (fun e : Fin 64 => rowDot xb wb a (row e)) = fun e : Fin 64 => rowDot X W g (row' e) := by
    funext e; unfold rowDot; exact Finset.sum_congr rfl fun k _ => by rw [hx, hw]
  rw [h]

/-- The same for the gate's dot product. -/
theorem gate_row_congr {A B R E : ℕ} (xb : (⟨2, ![A, 4096]⟩ : Shape).Idx → EReal) (wb : (⟨2, ![B, 4096]⟩ : Shape).Idx → EReal)
    (X : (⟨2, ![R, 4096]⟩ : Shape).Idx → EReal) (W : (⟨2, ![E, 4096]⟩ : Shape).Idx → EReal)
    (a : Fin A) (g : Fin R) (e : Fin B) (e' : Fin E)
    (hx : ∀ k : Fin 4096, xb (ix2 a k) = X (ix2 g k)) (hw : ∀ k : Fin 4096, wb (ix2 e k) = W (ix2 e' k)) :
    rowDot xb wb a e = rowDot X W g e' := by
  unfold rowDot; exact Finset.sum_congr rfl fun k _ => by rw [hx, hw]

/-! ## The body's buffers, row by row -/

theorem hzero : (![0, 0] : Fin 2 → Nat) = fun _ => 0 := funext fun a => by fin_cases a <;> rfl

/-- Row `p` of token band `j` is row `256 j + p` of the token buffer. -/
theorem band0 (xb : Vec Ideal S1024x4096 .f32) (p : Fin 256) (k : Fin 4096) (a : Fin 1024) (ha : a.val = 0 + p.val) :
    View.ld xb rX0 (ix2 p k) = xb (ix2 a k) := by
  show xb (rX0.emb (ix2 p k)) = _
  refine congrArg _ ?_
  funext ax; apply Fin.ext
  match ax with
  | ⟨0, _⟩ => show 0 + 1 * p.val = a.val; omega
  | ⟨1, _⟩ => show 0 + 1 * k.val = k.val; omega
theorem band1 (xb : Vec Ideal S1024x4096 .f32) (p : Fin 256) (k : Fin 4096) (a : Fin 1024) (ha : a.val = 256 + p.val) :
    View.ld xb rX1 (ix2 p k) = xb (ix2 a k) := by
  show xb (rX1.emb (ix2 p k)) = _
  refine congrArg _ ?_
  funext ax; apply Fin.ext
  match ax with
  | ⟨0, _⟩ => show 256 + 1 * p.val = a.val; omega
  | ⟨1, _⟩ => show 0 + 1 * k.val = k.val; omega
theorem band2 (xb : Vec Ideal S1024x4096 .f32) (p : Fin 256) (k : Fin 4096) (a : Fin 1024) (ha : a.val = 512 + p.val) :
    View.ld xb rX2 (ix2 p k) = xb (ix2 a k) := by
  show xb (rX2.emb (ix2 p k)) = _
  refine congrArg _ ?_
  funext ax; apply Fin.ext
  match ax with
  | ⟨0, _⟩ => show 512 + 1 * p.val = a.val; omega
  | ⟨1, _⟩ => show 0 + 1 * k.val = k.val; omega
theorem band3 (xb : Vec Ideal S1024x4096 .f32) (p : Fin 256) (k : Fin 4096) (a : Fin 1024) (ha : a.val = 768 + p.val) :
    View.ld xb rX3 (ix2 p k) = xb (ix2 a k) := by
  show xb (rX3.emb (ix2 p k)) = _
  refine congrArg _ ?_
  funext ax; apply Fin.ext
  match ax with
  | ⟨0, _⟩ => show 768 + 1 * p.val = a.val; omega
  | ⟨1, _⟩ => show 0 + 1 * k.val = k.val; omega

/-- The body loads the weight buffer whole. -/
theorem ldW (wb : Vec Ideal S128x4096 .f32) : View.ld wb rW = wb := View.ld_unit_zero (S := S128x4096) hzero _ wb

/-- The scores buffer after the body, as one function of its index. -/
def scoresBuf (xb : Vec Ideal S1024x4096 .f32) (wb : Vec Ideal S128x4096 .f32) : Vec Ideal S1024x64 .f32 :=
  fun y => softmaxRow (fun e : Fin 64 => rowDot xb wb (y 0) (expertRow e)) (y 1)

/-- The gate buffer after the body, as one function of its index. -/
def gateBuf (xb : Vec Ideal S1024x4096 .f32) (wb : Vec Ideal S128x4096 .f32) : Vec Ideal S1024x1 .f32 :=
  fun y => Ideal.logistic (rowDot xb wb (y 0) gateRow)

/-- Where each band's local index lands in the buffer. -/
theorem embS0 (p : Fin 256) (q : Fin 64) : rS0.emb (ix2 p q) = ix2 (⟨0 + p.val, by have := p.isLt; omega⟩ : Fin 1024) q := by
  funext ax; apply Fin.ext
  match ax with
  | ⟨0, _⟩ => show 0 + 1 * p.val = 0 + p.val; omega
  | ⟨1, _⟩ => show 0 + 1 * q.val = q.val; omega
theorem embG0 (p : Fin 256) (q : Fin 1) : rG0.emb (ix2 p q) = ix2 (⟨0 + p.val, by have := p.isLt; omega⟩ : Fin 1024) q := by
  funext ax; apply Fin.ext
  match ax with
  | ⟨0, _⟩ => show 0 + 1 * p.val = 0 + p.val; omega
  | ⟨1, _⟩ => show 0 + 1 * q.val = q.val; omega
theorem embS1 (p : Fin 256) (q : Fin 64) : rS1.emb (ix2 p q) = ix2 (⟨256 + p.val, by have := p.isLt; omega⟩ : Fin 1024) q := by
  funext ax; apply Fin.ext
  match ax with
  | ⟨0, _⟩ => show 256 + 1 * p.val = 256 + p.val; omega
  | ⟨1, _⟩ => show 0 + 1 * q.val = q.val; omega
theorem embG1 (p : Fin 256) (q : Fin 1) : rG1.emb (ix2 p q) = ix2 (⟨256 + p.val, by have := p.isLt; omega⟩ : Fin 1024) q := by
  funext ax; apply Fin.ext
  match ax with
  | ⟨0, _⟩ => show 256 + 1 * p.val = 256 + p.val; omega
  | ⟨1, _⟩ => show 0 + 1 * q.val = q.val; omega
theorem embS2 (p : Fin 256) (q : Fin 64) : rS2.emb (ix2 p q) = ix2 (⟨512 + p.val, by have := p.isLt; omega⟩ : Fin 1024) q := by
  funext ax; apply Fin.ext
  match ax with
  | ⟨0, _⟩ => show 512 + 1 * p.val = 512 + p.val; omega
  | ⟨1, _⟩ => show 0 + 1 * q.val = q.val; omega
theorem embG2 (p : Fin 256) (q : Fin 1) : rG2.emb (ix2 p q) = ix2 (⟨512 + p.val, by have := p.isLt; omega⟩ : Fin 1024) q := by
  funext ax; apply Fin.ext
  match ax with
  | ⟨0, _⟩ => show 512 + 1 * p.val = 512 + p.val; omega
  | ⟨1, _⟩ => show 0 + 1 * q.val = q.val; omega
theorem embS3 (p : Fin 256) (q : Fin 64) : rS3.emb (ix2 p q) = ix2 (⟨768 + p.val, by have := p.isLt; omega⟩ : Fin 1024) q := by
  funext ax; apply Fin.ext
  match ax with
  | ⟨0, _⟩ => show 768 + 1 * p.val = 768 + p.val; omega
  | ⟨1, _⟩ => show 0 + 1 * q.val = q.val; omega
theorem embG3 (p : Fin 256) (q : Fin 1) : rG3.emb (ix2 p q) = ix2 (⟨768 + p.val, by have := p.isLt; omega⟩ : Fin 1024) q := by
  funext ax; apply Fin.ext
  match ax with
  | ⟨0, _⟩ => show 768 + 1 * p.val = 768 + p.val; omega
  | ⟨1, _⟩ => show 0 + 1 * q.val = q.val; omega

/-- Each of the four score bands the body stores is the band of `scoresBuf` its rectangle names, so the buffer is `scoresBuf`. -/
theorem outScores_eq (xb : Vec Ideal S1024x4096 .f32) (wb : Vec Ideal S128x4096 .f32) :
    outScores (F := Ideal) xb wb = scoresBuf xb wb := by
  funext y
  unfold outScores
  refine View.canon_apply_of_pieces (Val := Elt Ideal) (scoresBuf xb wb) _ ?_ y (coverScores _ _ _ _ y)
  intro pc hpc
  simp only [List.mem_cons, List.mem_nil_iff, or_false] at hpc
  rcases hpc with rfl | rfl | rfl | rfl <;> intro x <;>
    obtain ⟨p, q, rfl⟩ : ∃ (p : Fin 256) (q : Fin 64), x = ix2 p q := ⟨x 0, x 1, eq_ix2 x⟩
  · show k0_pay5 (F := Ideal) (k0_pay7 (View.ld wb rW)) (View.ld xb rX3) (ix2 p q) = scoresBuf xb wb (rS3.emb (ix2 p q))
    rw [embS3, scores_q3, weights_cast, ldW]
    exact scores_row_congr (View.ld xb rX3) wb xb wb p ⟨768 + p.val, by have := p.isLt; omega⟩ expertRow expertRow q (fun k => band3 xb p k _ rfl) (fun _ _ => rfl)
  · show k0_pay2 (F := Ideal) (k0_pay7 (View.ld wb rW)) (View.ld xb rX2) (ix2 p q) = scoresBuf xb wb (rS2.emb (ix2 p q))
    rw [embS2, scores_q2, weights_cast, ldW]
    exact scores_row_congr (View.ld xb rX2) wb xb wb p ⟨512 + p.val, by have := p.isLt; omega⟩ expertRow expertRow q (fun k => band2 xb p k _ rfl) (fun _ _ => rfl)
  · show k0_pay12 (F := Ideal) (View.ld wb rW) (View.ld xb rX1) (ix2 p q) = scoresBuf xb wb (rS1.emb (ix2 p q))
    rw [embS1, scores_q1, ldW]
    exact scores_row_congr (View.ld xb rX1) wb xb wb p ⟨256 + p.val, by have := p.isLt; omega⟩ expertRow expertRow q (fun k => band1 xb p k _ rfl) (fun _ _ => rfl)
  · show k0_pay9 (F := Ideal) (View.ld wb rW) (View.ld xb rX0) (ix2 p q) = scoresBuf xb wb (rS0.emb (ix2 p q))
    rw [embS0, scores_q0, ldW]
    exact scores_row_congr (View.ld xb rX0) wb xb wb p ⟨0 + p.val, by have := p.isLt; omega⟩ expertRow expertRow q (fun k => band0 xb p k _ rfl) (fun _ _ => rfl)

/-- Likewise the four gate bands. -/
theorem outGate_eq (xb : Vec Ideal S1024x4096 .f32) (wb : Vec Ideal S128x4096 .f32) :
    outGate (F := Ideal) xb wb = gateBuf xb wb := by
  funext y
  unfold outGate
  refine View.canon_apply_of_pieces (Val := Elt Ideal) (gateBuf xb wb) _ ?_ y (coverGate _ _ _ _ y)
  intro pc hpc
  simp only [List.mem_cons, List.mem_nil_iff, or_false] at hpc
  rcases hpc with rfl | rfl | rfl | rfl <;> intro x <;>
    obtain ⟨p, q, rfl⟩ : ∃ (p : Fin 256) (q : Fin 1), x = ix2 p q := ⟨x 0, x 1, eq_ix2 x⟩
  · show k0_pay6 (F := Ideal) (k0_pay7 (View.ld wb rW)) (View.ld xb rX3) (ix2 p q) = gateBuf xb wb (rG3.emb (ix2 p q))
    obtain rfl : q = 0 := Subsingleton.elim _ _
    rw [embG3, gate_q3, weights_cast, ldW]
    exact congrArg Ideal.logistic (gate_row_congr (View.ld xb rX3) wb xb wb p ⟨768 + p.val, by have := p.isLt; omega⟩ gateRow gateRow (fun k => band3 xb p k _ rfl) (fun _ => rfl))
  · show k0_pay3 (F := Ideal) (k0_pay7 (View.ld wb rW)) (View.ld xb rX2) (ix2 p q) = gateBuf xb wb (rG2.emb (ix2 p q))
    obtain rfl : q = 0 := Subsingleton.elim _ _
    rw [embG2, gate_q2, weights_cast, ldW]
    exact congrArg Ideal.logistic (gate_row_congr (View.ld xb rX2) wb xb wb p ⟨512 + p.val, by have := p.isLt; omega⟩ gateRow gateRow (fun k => band2 xb p k _ rfl) (fun _ => rfl))
  · show k0_pay13 (F := Ideal) (View.ld wb rW) (View.ld xb rX1) (ix2 p q) = gateBuf xb wb (rG1.emb (ix2 p q))
    obtain rfl : q = 0 := Subsingleton.elim _ _
    rw [embG1, gate_q1, ldW]
    exact congrArg Ideal.logistic (gate_row_congr (View.ld xb rX1) wb xb wb p ⟨256 + p.val, by have := p.isLt; omega⟩ gateRow gateRow (fun k => band1 xb p k _ rfl) (fun _ => rfl))
  · show k0_pay10 (F := Ideal) (View.ld wb rW) (View.ld xb rX0) (ix2 p q) = gateBuf xb wb (rG0.emb (ix2 p q))
    obtain rfl : q = 0 := Subsingleton.elim _ _
    rw [embG0, gate_q0, ldW]
    exact congrArg Ideal.logistic (gate_row_congr (View.ld xb rX0) wb xb wb p ⟨0 + p.val, by have := p.isLt; omega⟩ gateRow gateRow (fun k => band0 xb p k _ rfl) (fun _ => rfl))

/-! ## From the buffers to the arrays -/

variable (m : (ℓ : Loc nD τ sig) → Buf (Elt Ideal) ℓ) (ρ : Dev nD → PrngReg)

/-- The three argument arrays as launched. -/
abbrev X (c : Dev nD) : Vec Ideal S32768x4096 .f32 := m ((c : Thread nD τ).loc main_arg0)
abbrev Wr (c : Dev nD) : Vec Ideal S64x4096 .f32 := m ((c : Thread nD τ).loc main_arg1)
abbrev Wg (c : Dev nD) : Vec Ideal S1x4096 .f32 := m ((c : Thread nD τ).loc main_arg2)

/-- The two input blocks at a point, at their literal types. -/
abbrev xblk (c : Dev nD) (t : Fin cfg0.N) : Vec Ideal S1024x4096 .f32 := iblk m c 0 t
abbrev wblk (c : Dev nD) (t : Fin cfg0.N) : Vec Ideal S128x4096 .f32 := iblk m c 1 t

/-- The printed index maps over the 32 points: the token window and both result windows are at block row `t`, column block 0. -/
theorem idxFacts : ∀ t : Fin cfg0.N, win0_0.index t (0 : Fin 2) = t.val ∧ win0_0.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 32 := lt_of_lt_of_eq t.isLt N_0

/-- Row `a` of the token block at point `t` is row `1024 t + a` of `x`. -/
theorem xblk_apply (c : Dev nD) (t : Fin cfg0.N) (a : Fin 1024) (k : Fin 4096) (g : Fin 32768) (hg : g.val = t.val * 1024 + a.val) :
    xblk m c t (ix2 a k) = X m c (ix2 g k) := by
  show V m c main_arg0 (((cfg0.win 0).blk t).view.emb (ix2 a k)) = _
  rw [V_main_arg0]
  refine congrArg _ ?_
  funext ax; apply Fin.ext
  obtain ⟨e0, e1, -⟩ := idxFacts t
  match ax with
  | ⟨0, _⟩ => show win0_0.index t (0 : Fin 2) * 1024 + 1 * a.val = g.val; omega
  | ⟨1, _⟩ => show win0_0.index t (1 : Fin 2) * 4096 + 1 * k.val = k.val; omega

/-- The weight block at every point is the whole packed matrix. -/
theorem wblk_eq (c : Dev nD) (t : Fin cfg0.N) : wblk m c t = (V m c main_v1 : S128x4096.Idx → Elt Ideal .f32) := by
  funext y
  show V m c main_v1 (((cfg0.win 1).blk t).view.emb y) = _
  refine congrArg _ ?_
  funext ax; apply Fin.ext
  match ax with
  | ⟨0, _⟩ => show 0 * 128 + 1 * (y 0).val = (y 0).val; omega
  | ⟨1, _⟩ => show 0 * 4096 + 1 * (y 1).val = (y 1).val; omega

/-- The three pieces the host concatenates into the packed matrix. -/
abbrev packedPieces (c : Dev nD) : List ((s : Shape) × (s.Idx → Elt Ideal .f32)) :=
  [⟨S64x4096, Wr m c⟩, ⟨S1x4096, Wg m c⟩,
    ⟨S63x4096, broadcastInDim S63x4096 ![] bcast_S_S63x4096 (constant (F := Ideal) S_ .f32 0x00000000#32)⟩]

/-- The packed matrix the region finds: the router rows, the gate row, 63 zero rows, along axis 0. -/
theorem V_main_v1 (c : Dev nD) : (V m c main_v1 : S128x4096.Idx → Elt Ideal .f32) =
    concatenate S128x4096 0 (packedPieces m c) concatenates_S64x4096_S1x4096_S63x4096_S128x4096_d0 := by
  dsimp only [V, hostOps0]
  simp only [StableHlo.after_cons, StableHlo.after_nil]
  rw [StableHlo.nary3_result]
  repeat (first
    | rw [StableHlo.nullary_result] | rw [StableHlo.unary_result]
    | (rw [StableHlo.nullary_result_ne]; rotate_left; decide)
    | (rw [StableHlo.unary_result_ne]; rotate_left; decide))
  rfl

/-- Its row `e < 64` is router row `e`: the index falls in the first piece. -/
theorem packed_expert (c : Dev nD) (e : Fin 64) (k : Fin 4096) :
    (V m c main_v1 : S128x4096.Idx → Elt Ideal .f32) (ix2 (expertRow e) k) = Wr m c (ix2 e k) := by
  rw [V_main_v1]
  refine concatenate_apply_piece (t := S128x4096) (0 : Fin 2) (packedPieces m c) concatenates_S64x4096_S1x4096_S63x4096_S128x4096_d0 _ 0 (show (0 : ℕ) < 3 by omega) S64x4096 _ rfl rfl 0 rfl (ix2 e k) (fun b hb => ?_) ?_
  · match b with
    | ⟨0, _⟩ => exact absurd rfl hb
    | ⟨1, _⟩ => rfl
  · simp

/-- Its row 64 is the gate row: the index falls in the second piece, after the 64 router rows. -/
theorem packed_gate (c : Dev nD) (k : Fin 4096) :
    (V m c main_v1 : S128x4096.Idx → Elt Ideal .f32) (ix2 gateRow k) = Wg m c (ix2 (0 : Fin 1) k) := by
  rw [V_main_v1]
  refine concatenate_apply_piece (t := S128x4096) (0 : Fin 2) (packedPieces m c) concatenates_S64x4096_S1x4096_S63x4096_S128x4096_d0 _ 1 (show (1 : ℕ) < 3 by omega) S1x4096 _ rfl rfl 64 rfl (ix2 (0 : Fin 1) k) (fun b hb => ?_) ?_
  · match b with
    | ⟨0, _⟩ => exact absurd rfl hb
    | ⟨1, _⟩ => rfl
  · rfl

/-- Where a buffer index lands in the result arrays at point `t`: row `1024 t + a`, same column. -/
theorem emb2 (t : Fin cfg0.N) (a : Fin 1024) (q : Fin 64) :
    ((cfg0.win 2).blk t).view.emb (ix2 a q) = ix2 (⟨t.val * 1024 + a.val, by have := point_lt t; have := a.isLt; omega⟩ : Fin 32768) q := by
  funext ax; apply Fin.ext
  obtain ⟨-, -, e2, e3, -⟩ := idxFacts t
  match ax with
  | ⟨0, _⟩ => show win0_2.index t (0 : Fin 2) * 1024 + 1 * a.val = t.val * 1024 + a.val; omega
  | ⟨1, _⟩ => show win0_2.index t (1 : Fin 2) * 64 + 1 * q.val = q.val; omega
theorem emb3 (t : Fin cfg0.N) (a : Fin 1024) (q : Fin 1) :
    ((cfg0.win 3).blk t).view.emb (ix2 a q) = ix2 (⟨t.val * 1024 + a.val, by have := point_lt t; have := a.isLt; omega⟩ : Fin 32768) q := by
  funext ax; apply Fin.ext
  obtain ⟨-, -, -, -, e4, e5⟩ := idxFacts t
  match ax with
  | ⟨0, _⟩ => show win0_3.index t (0 : Fin 2) * 1024 + 1 * a.val = t.val * 1024 + a.val; omega
  | ⟨1, _⟩ => show win0_3.index t (1 : Fin 2) * 1 + 1 * q.val = q.val; omega

/-- What point `t` writes back to the scores array is block `t` of the router's scores of the argument arrays. -/
theorem flushedScores (c : Dev nD) (t : Fin cfg0.N) :
    (dats m 0 c).flushed 2 t = ((cfg0.win 2).blk t).view.read (Elt Ideal) (scores (X m c) (Wr m c)) := by
  show (cfg0.win 2).cut (grid0.coords t) ((dats m 0 c).after 2 t) = _
  rw [after0_2, outScores_eq]
  funext j
  obtain ⟨a, q, rfl⟩ : ∃ (a : Fin 1024) (q : Fin 64), j = ix2 a q := ⟨j 0, j 1, eq_ix2 j⟩
  show scoresBuf (xblk m c t) (wblk m c t) (ix2 a q) = scores (X m c) (Wr m c) (((cfg0.win 2).blk t).view.emb (ix2 a q))
  rw [emb2]
  exact scores_row_congr (xblk m c t) (wblk m c t) (X m c) (Wr m c) a _ expertRow (fun e => e) q
    (fun k => xblk_apply m c t a k _ rfl) (fun e k => by rw [wblk_eq]; exact packed_expert m c e k)

/-- What point `t` writes back to the gate array is block `t` of the shared gate of the argument arrays. -/
theorem flushedGate (c : Dev nD) (t : Fin cfg0.N) :
    (dats m 0 c).flushed 3 t = ((cfg0.win 3).blk t).view.read (Elt Ideal) (gate (X m c) (Wg m c)) := by
  show (cfg0.win 3).cut (grid0.coords t) ((dats m 0 c).after 3 t) = _
  rw [after0_3, outGate_eq]
  funext j
  obtain ⟨a, q, rfl⟩ : ∃ (a : Fin 1024) (q : Fin 1), j = ix2 a q := ⟨j 0, j 1, eq_ix2 j⟩
  show gateBuf (xblk m c t) (wblk m c t) (ix2 a q) = gate (X m c) (Wg m c) (((cfg0.win 3).blk t).view.emb (ix2 a q))
  rw [emb3]
  exact congrArg Ideal.logistic (gate_row_congr (xblk m c t) (wblk m c t) (X m c) (Wg m c) a _ gateRow (0 : Fin 1)
    (fun k => xblk_apply m c t a k _ rfl) (fun k => by rw [wblk_eq]; exact packed_gate m c k))

/-- An index of the scores array is in point `t`'s block iff each coordinate is in the block's range. -/
theorem mem_blk2 (t : Fin cfg0.N) (i : S32768x64.Idx) :
    i ∈ ((cfg0.win 2).blk t).view.set ↔ ∀ a : Fin 2, win0_2.index t a * S1024x64.size a ≤ (i a).val ∧ (i a).val < win0_2.index t a * S1024x64.size a + S1024x64.size a := by
  show i ∈ ((View.whole main_v2_0).slice (win0_2.rect t)).set ↔ _
  rw [View.set_slice_whole, Rect.mem_set_unit]
  exact Iff.rfl
theorem mem_blk3 (t : Fin cfg0.N) (i : S32768x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v2_1).slice (win0_3.rect t)).set ↔ _
  rw [View.set_slice_whole, Rect.mem_set_unit]
  exact Iff.rfl

/-- Row `r` of either result array is written by point `r / 1024`. -/
theorem coverScoresArr (i : S32768x64.Idx) : ∃ t : Fin cfg0.N, (cfg0.win 2).flush t = true ∧ i ∈ ((cfg0.win 2).blk t).view.set := by
  have hi0 : (i 0).val < 32768 := (i 0).isLt
  have hi1 : (i 1).val < 64 := (i 1).isLt
  have hN : (i 0).val / 1024 < cfg0.N := by rw [show cfg0.N = 32 from N_0]; omega
  obtain ⟨-, -, e2, e3, -⟩ := idxFacts ⟨(i 0).val / 1024, hN⟩
  refine ⟨⟨(i 0).val / 1024, hN⟩, flush0_2 _, ?_⟩
  rw [mem_blk2]
  intro a
  match a with
  | ⟨0, _⟩ =>
    show win0_2.index ⟨(i 0).val / 1024, hN⟩ (0 : Fin 2) * 1024 ≤ (i 0).val ∧ (i 0).val < win0_2.index ⟨(i 0).val / 1024, hN⟩ (0 : Fin 2) * 1024 + 1024
    rw [e2]; show (i 0).val / 1024 * 1024 ≤ (i 0).val ∧ (i 0).val < (i 0).val / 1024 * 1024 + 1024; omega
  | ⟨1, _⟩ =>
    show win0_2.index ⟨(i 0).val / 1024, hN⟩ (1 : Fin 2) * 64 ≤ (i 1).val ∧ (i 1).val < win0_2.index ⟨(i 0).val / 1024, hN⟩ (1 : Fin 2) * 64 + 64
    rw [e3]; omega
theorem coverGateArr (i : S32768x1.Idx) : ∃ t : Fin cfg0.N, (cfg0.win 3).flush t = true ∧ i ∈ ((cfg0.win 3).blk t).view.set := by
  have hi0 : (i 0).val < 32768 := (i 0).isLt
  have hi1 : (i 1).val < 1 := (i 1).isLt
  have hN : (i 0).val / 1024 < cfg0.N := by rw [show cfg0.N = 32 from N_0]; omega
  obtain ⟨-, -, -, -, e4, e5⟩ := idxFacts ⟨(i 0).val / 1024, hN⟩
  refine ⟨⟨(i 0).val / 1024, hN⟩, flush0_3 _, ?_⟩
  rw [mem_blk3]
  intro a
  match a with
  | ⟨0, _⟩ =>
    show win0_3.index ⟨(i 0).val / 1024, hN⟩ (0 : Fin 2) * 1024 ≤ (i 0).val ∧ (i 0).val < win0_3.index ⟨(i 0).val / 1024, hN⟩ (0 : Fin 2) * 1024 + 1024
    rw [e4]; show (i 0).val / 1024 * 1024 ≤ (i 0).val ∧ (i 0).val < (i 0).val / 1024 * 1024 + 1024; omega
  | ⟨1, _⟩ =>
    show win0_3.index ⟨(i 0).val / 1024, hN⟩ (1 : Fin 2) * 1 ≤ (i 1).val ∧ (i 1).val < win0_3.index ⟨(i 0).val / 1024, hN⟩ (1 : Fin 2) * 1 + 1
    rw [e5]; omega

/-- After the run the scores array is the router's scores of the argument arrays, -/
theorem finalScores (c : Dev nD) : (dats m 0 c).arrAt 2 cfg0.N = scores (X m c) (Wr m c) :=
  (dats m 0 c).arrAt_eq_of_cover 2 (scores (X m c) (Wr m c)) (fun t _ => flushedScores m c t) coverScoresArr
/-- and the gate array the shared gate. -/
theorem finalGate (c : Dev nD) : (dats m 0 c).arrAt 3 cfg0.N = gate (X m c) (Wg m c) :=
  (dats m 0 c).arrAt_eq_of_cover 3 (gate (X m c) (Wg m c)) (fun t _ => flushedGate m c t) coverGateArr

/-! ## The run, read -/

/-- Every weakly fair execution of the idealized kernel program terminates without a fault with the two result arrays
    at the router's scores and the shared gate of the argument arrays, and the arguments unchanged. -/
theorem run : θ_run defs (onTc (τ := τ) (main (F := Ideal))) ⟨m, fun _ => 0, ρ⟩ fun r => ∀ c : Dev nD,
      r.2.mem ((c.tc : Thread nD τ).loc main_v2_0) = scores (X m c) (Wr m c)
      ∧ r.2.mem ((c.tc : Thread nD τ).loc main_v2_1) = gate (X m c) (Wg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).1 2).trans (finalScores m c), ((h c).1 3).trans (finalGate m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.KernelIdeal.HandValue

end
-- ==== Proof.RefSoftmax.lean ====
import proofs.«168152_g7705171329365_cont_9to1_m_101_15_alg».proof.Proof.Gen.ReferenceIdeal.Read
import proofs.«168152_g7705171329365_cont_9to1_m_101_15_alg».proof.Proof.RouterSpec

/-
  The reference program, read one entry at a time, is the router's specification.

  Entry (r, e) of the first result is a quotient. Its numerator is the exponential of the logit of token r at expert e
  minus the largest logit of token r; its denominator is the sum of those exponentials over the 64 experts. The logit is
  the sum over the 4096 columns of x (r, k) times the router matrix at (e, k): the reference multiplies by the transposed
  matrix, and reading the transpose at (k, e) gives the matrix at (e, k). The largest logit arrives as a fold of max from
  negative infinity over the row, joined once more with negative infinity (max of bottom and m is m), and the sum of
  exponentials arrives as zero plus the sum (zero is the neutral element). The second result at (r, 0) is one divided
  by one plus the exponential of minus the dot product of token r with the single gate row, which is the logistic of
  that dot product by definition.
-/

noncomputable section

open scoped BigOperators

namespace Cert.RefSoftmax

open Cert.ReferenceIdeal Cert.ReferenceIdeal.Gen Idealize.ShloMosaic Idealize.ShloMosaic.ValueIdx

/-! ## The constant words -/

/-- The word of negative infinity denotes the bottom of the extended reals. -/
theorem negInf_word : Ideal.ofBits .f32 0xFF800000#32 = (⊥ : EReal) := by simp [Ideal.ofBits, Ideal.ieee]

/-- The word of the float one denotes one. -/
theorem one_word : Ideal.ofBits .f32 0x3F800000#32 = (1 : EReal) := by
  simp [Ideal.ofBits, Ideal.ieee, -EReal.coe_mul]; norm_num

/-! ## The logits -/

/-- The left operand of the product is read at (r, k). -/
theorem lidx_v1 (r : Fin 32768) (e : Fin 64) (k : Fin 4096) : Read.lidx_main_v1 (ix2 r e) k = ix2 r k := by
  funext a; match a with | ⟨0, _⟩ => rfl | ⟨1, _⟩ => rfl

/-- The right operand of the product, the transposed matrix, is read at (k, e). -/
theorem ridx_v1 (r : Fin 32768) (e : Fin 64) (k : Fin 4096) : Read.ridx_main_v1 (ix2 r e) k = ix2 k e := by
  funext a; match a with | ⟨0, _⟩ => rfl | ⟨1, _⟩ => rfl

/-- The transpose at (k, e) reads the matrix at (e, k). -/
theorem idx_v0 (k : Fin 4096) (e : Fin 64) : Read.idx_main_v0 (ix2 k e) = ix2 e k := by
  funext a; match a with | ⟨0, _⟩ => rfl | ⟨1, _⟩ => rfl

/-- Entry (r, e) of the product with the transposed router matrix is the dot product of row r of x with row e of the matrix. -/
theorem logits_apply (x0 : (⟨S32768x4096, .f32⟩ : BufTy).Contents (Elt Ideal)) (x1 : (⟨S64x4096, .f32⟩ : BufTy).Contents (Elt Ideal))
    (r : Fin 32768) (e : Fin 64) :
    Read.val_main_v1 (F := Ideal) x0 x1 (ix2 r e) = Cert.RouterSpec.rowDot x0 x1 r e := by
  rw [Read.val_main_v1_apply]
  unfold Cert.RouterSpec.rowDot
  refine Finset.sum_congr rfl fun k _ => ?_
  rw [Read.val_main_v0_apply, lidx_v1, ridx_v1, idx_v0]

/-! ## The row maximum -/

/-- A maximum taken along the second axis from negative infinity is, at row r, the fold of max from bottom over that row. -/
theorem reduceMax_apply (y : S32768x64.Idx → EReal) (r : Fin 32768) :
    Host.reduce (FloatOps.maximumf (F := Ideal) (φ := .f32)) y (Read.val_main_cst (F := Ideal)) reducesTo_S32768x64_S32768_d1 h_S_ (ix1 r)
      = Cert.RouterSpec.rowMax (fun e : Fin 64 => y (ix2 r e)) := by
  rw [Host.reduce_eq_fold_single (FloatOps.maximumf (F := Ideal) (φ := .f32)) y _ reducesTo_S32768x64_S32768_d1 (by decide) h_S_]
  unfold Cert.RouterSpec.rowMax
  rw [Read.val_main_cst_apply, Ideal.ofBits_def, negInf_word]
  exact Finset.fold_congr (fun k _ => congrArg y (funext fun a => Fin.ext (by match a with | ⟨0, _⟩ => rfl | ⟨1, _⟩ => rfl)))

/-- The reduced maximum at row r is the largest logit of token r. -/
theorem rowmax_apply (x0 : (⟨S32768x4096, .f32⟩ : BufTy).Contents (Elt Ideal)) (x1 : (⟨S64x4096, .f32⟩ : BufTy).Contents (Elt Ideal))
    (r : Fin 32768) :
    Read.val_main_v2 (F := Ideal) x0 x1 (ix1 r) = Cert.RouterSpec.rowMax (fun e' : Fin 64 => Cert.RouterSpec.rowDot x0 x1 r e') := by
  unfold Read.val_main_v2
  rw [reduceMax_apply]
  exact congrArg Cert.RouterSpec.rowMax (funext fun e' => logits_apply x0 x1 r e')

/-- The column of maxima, spread back over the experts, is read at row r. -/
theorem idx_v5_v6 (r : Fin 32768) (e : Fin 64) : Read.idx_main_v5 (Read.idx_main_v6 (ix2 r e)) = ix1 r := by
  funext a; match a with | ⟨0, _⟩ => rfl

/-- The value the reference subtracts at (r, e) is the largest logit of token r: joining with negative infinity changes nothing. -/
theorem shift_apply (x0 : (⟨S32768x4096, .f32⟩ : BufTy).Contents (Elt Ideal)) (x1 : (⟨S64x4096, .f32⟩ : BufTy).Contents (Elt Ideal))
    (r : Fin 32768) (e : Fin 64) :
    Read.val_main_v6 (F := Ideal) x0 x1 (ix2 r e) = Cert.RouterSpec.rowMax (fun e' : Fin 64 => Cert.RouterSpec.rowDot x0 x1 r e') := by
  rw [Read.val_main_v6_apply, Read.val_main_v5_apply, Read.val_main_v4_apply, Read.val_main_v3_apply, Read.val_main_cst_0_apply,
    idx_v5_v6, rowmax_apply, Ideal.ofBits_def, negInf_word]
  exact max_bot_left _

/-! ## The exponentials and their sum -/

/-- The exponential at (r, e): of the logit minus the row's largest logit. -/
theorem expo_apply (x0 : (⟨S32768x4096, .f32⟩ : BufTy).Contents (Elt Ideal)) (x1 : (⟨S64x4096, .f32⟩ : BufTy).Contents (Elt Ideal))
    (r : Fin 32768) (e : Fin 64) :
    Read.val_main_v8 (F := Ideal) x0 x1 (ix2 r e)
      = Ideal.exp (Cert.RouterSpec.rowDot x0 x1 r e - Cert.RouterSpec.rowMax (fun e' : Fin 64 => Cert.RouterSpec.rowDot x0 x1 r e')) := by
  rw [Read.val_main_v8_apply, Read.val_main_v7_apply, logits_apply, shift_apply]
  rfl

/-- The column of sums, spread back over the experts, reads the exponentials of row r. -/
theorem idx_v9_v10_v11 (r : Fin 32768) (e : Fin 64) (k : Fin 64) :
    Read.idx_main_v9 (Read.idx_main_v10 (Read.idx_main_v11 (ix2 r e))) k = ix2 r k := by
  funext a; match a with | ⟨0, _⟩ => rfl | ⟨1, _⟩ => rfl

/-- The divisor at (r, e): the sum over the experts of the exponentials of row r (zero plus the sum is the sum). -/
theorem denom_apply (x0 : (⟨S32768x4096, .f32⟩ : BufTy).Contents (Elt Ideal)) (x1 : (⟨S64x4096, .f32⟩ : BufTy).Contents (Elt Ideal))
    (r : Fin 32768) (e : Fin 64) :
    Read.val_main_v11 (F := Ideal) x0 x1 (ix2 r e)
      = ∑ k : Fin 64, Ideal.exp (Cert.RouterSpec.rowDot x0 x1 r k - Cert.RouterSpec.rowMax (fun e' : Fin 64 => Cert.RouterSpec.rowDot x0 x1 r e')) := by
  rw [Read.val_main_v11_apply, Read.val_main_v10_apply, Read.val_main_v9_apply, Read.val_main_cst_1_apply, Ideal.ofBits_def,
    Ideal.ofBits_zero_f32, zero_add]
  refine Finset.sum_congr rfl fun k _ => ?_
  rw [idx_v9_v10_v11, expo_apply]

/-- The reference's first result, as the composed stage of its operations, is the router's scores. -/
theorem scores_eq (x0 : (⟨S32768x4096, .f32⟩ : BufTy).Contents (Elt Ideal)) (x1 : (⟨S64x4096, .f32⟩ : BufTy).Contents (Elt Ideal)) :
    Cert.ReferenceIdeal.Read.val_main_v12 (F := Ideal) x0 x1 = Cert.RouterSpec.scores x0 x1 := by
  funext i
  obtain ⟨r, e, rfl⟩ : ∃ (r : Fin 32768) (e : Fin 64), i = ix2 r e := ⟨i 0, i 1, eq_ix2 i⟩
  rw [Read.val_main_v12_apply, expo_apply, denom_apply]
  rfl

/-! ## The gate -/

/-- The left operand of the gate's product is read at (r, k). -/
theorem lidx_v14 (r : Fin 32768) (z : Fin 1) (k : Fin 4096) : Read.lidx_main_v14 (ix2 r z) k = ix2 r k := by
  funext a; match a with | ⟨0, _⟩ => rfl | ⟨1, _⟩ => rfl

/-- The right operand, the transposed gate row, is read at (k, z). -/
theorem ridx_v14 (r : Fin 32768) (z : Fin 1) (k : Fin 4096) : Read.ridx_main_v14 (ix2 r z) k = ix2 k z := by
  funext a; match a with | ⟨0, _⟩ => rfl | ⟨1, _⟩ => rfl

/-- The transpose at (k, z) reads the gate row at (z, k). -/
theorem idx_v13 (k : Fin 4096) (z : Fin 1) : Read.idx_main_v13 (ix2 k z) = ix2 z k := by
  funext a; match a with | ⟨0, _⟩ => rfl | ⟨1, _⟩ => rfl

/-- Entry (r, z) of the product with the transposed gate row is the dot product of row r of x with the gate row. -/
theorem gateDot_apply (x0 : (⟨S32768x4096, .f32⟩ : BufTy).Contents (Elt Ideal)) (x2 : (⟨S1x4096, .f32⟩ : BufTy).Contents (Elt Ideal))
    (r : Fin 32768) (z : Fin 1) :
    Read.val_main_v14 (F := Ideal) x0 x2 (ix2 r z) = Cert.RouterSpec.rowDot x0 x2 r z := by
  rw [Read.val_main_v14_apply]
  unfold Cert.RouterSpec.rowDot
  refine Finset.sum_congr rfl fun k _ => ?_
  rw [Read.val_main_v13_apply, lidx_v14, ridx_v14, idx_v13]

/-- The reference's second result is the shared gate. -/
theorem gate_eq (x0 : (⟨S32768x4096, .f32⟩ : BufTy).Contents (Elt Ideal)) (x2 : (⟨S1x4096, .f32⟩ : BufTy).Contents (Elt Ideal)) :
    Cert.ReferenceIdeal.Read.val_main_v20 (F := Ideal) x0 x2 = Cert.RouterSpec.gate x0 x2 := by
  funext i
  obtain ⟨r, z, rfl⟩ : ∃ (r : Fin 32768) (z : Fin 1), i = ix2 r z := ⟨i 0, i 1, eq_ix2 i⟩
  obtain rfl : z = 0 := Subsingleton.elim _ _
  rw [Read.val_main_v20_apply, Read.val_main_v19_apply, Read.val_main_cst_3_apply, Read.val_main_v18_apply, Read.val_main_v17_apply,
    Read.val_main_cst_2_apply, Read.val_main_v16_apply, Read.val_main_v15_apply, gateDot_apply, Ideal.ofBits_def, one_word]
  rfl

end Cert.RefSoftmax

end
-- ==== Proof.lean ====
/-
  A mixture-of-experts router, fused into one kernel, against its plain reference.

  For each of 32768 tokens (rows of `x`, 4096 columns) the reference computes the token's 64 logits against the rows of the
  router matrix, their softmax — `exp (l e - max l) / Σ_e' exp (l e' - max l)` — and a shared gate, the logistic
  `1 / (1 + exp (-z))` of the token's product `z` with a single gate row. The kernel packs the 64 router rows, the gate row
  and 63 zero rows into one 128-row matrix on the host, and on a grid of 32 points multiplies each point's 1024 tokens
  (in four bands of 256) by the packed matrix once: columns 0–63 of the product are the logits, column 64 is `z`.

  Over the extended reals the two programs compute the same function of the arguments, entry by entry, with no appeal
  to finiteness: a product into a zero accumulator is the sum of products in any order, the row maximum and the row sum are
  the same folds, the reference's extra `max (-∞, ·)` is the identity, and the kernel's logistic is by definition the
  reference's quotient. Both sides are brought to one specification (`RouterSpec`): the reference through its
  operations read at an index (`RefSoftmax`), the kernel through its payloads read at an index (`BlockValues`), the
  four bands assembled into buffers, the buffers into blocks and the 32 blocks into the result arrays (`IdealValue`).

  The frames: the kernel programs run host prefix, then the region; the region's run (`IdealRun`, and the same text for
  the word-level program) gives termination without a fault and the arguments unchanged. The reference is a straight
  line of host operations. Nothing was rewritten by idealization, so `preserves` has nothing to state.
-/
import proofs.«168152_g7705171329365_cont_9to1_m_101_15_alg».proof.Defs
import proofs.«168152_g7705171329365_cont_9to1_m_101_15_alg».proof.Proof.Gen.Kernel
import proofs.«168152_g7705171329365_cont_9to1_m_101_15_alg».proof.Proof.Gen.KernelIdeal
import proofs.«168152_g7705171329365_cont_9to1_m_101_15_alg».proof.Proof.Gen.ReferenceIdeal
import proofs.«168152_g7705171329365_cont_9to1_m_101_15_alg».proof.Proof.Gen.Pre_finite_inputs
import proofs.«168152_g7705171329365_cont_9to1_m_101_15_alg».proof.Proof.Gen.ReferenceIdeal.Read
import proofs.«168152_g7705171329365_cont_9to1_m_101_15_alg».proof.Proof.KernelRun
import proofs.«168152_g7705171329365_cont_9to1_m_101_15_alg».proof.Proof.IdealValue
import proofs.«168152_g7705171329365_cont_9to1_m_101_15_alg».proof.Proof.RefSoftmax

noncomputable section

namespace Cert.Proof

open Idealize.ShloMosaic Idealize.SL.Sem

/-- The word-level kernel program terminates, faults nowhere and leaves its arguments unchanged. -/
theorem frame_kernel : Cert.frame_Kernel := fun m ρ _ => Cert.Kernel.Hand.frame m ρ

/-- So does the idealized kernel program. -/
theorem frame_kernelIdeal : Cert.frame_KernelIdeal := fun m ρ _ => Cert.KernelIdeal.Hand.frame m ρ

/-- The reference is its run with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the arguments both idealized programs end with the router's scores and the shared gate
    of those arguments: the kernel by its value leg, the reference by its run read one operation at a time. -/
theorem algebraic : Cert.algebraic_KernelIdeal_ReferenceIdeal := by
  intro m ρ m' ρ' _ hagree
  refine ⟨_, _, Cert.KernelIdeal.HandValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v12_eq, Cert.RefSoftmax.scores_eq, (hagree c).1, (hagree c).2.1]
  · rw [Cert.ReferenceIdeal.Read.val_main_v20_eq, Cert.RefSoftmax.gate_eq, (hagree c).1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
